-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x8576 : Shape := ⟨3, ![16, 512, 8576]⟩
abbrev S8576 : Shape := ⟨1, ![8576]⟩
abbrev S_ : Shape := ⟨0, ![]⟩

class Facts : Prop where
  bcast_S_S16x512x8576 : S_.BroadcastsInDim S16x512x8576 (![] : Fin 0 → Fin S16x512x8576.rank)
  reducesTo_S16x512x8576_S_d0_1_2 : S16x512x8576.ReducesTo [0, 1, 2] S_
  h_S_ : 0 < S_.numel
  bcast_S_S8576 : S_.BroadcastsInDim S8576 (![] : Fin 0 → Fin S8576.rank)
  reducesTo_S8576_S_d0 : S8576.ReducesTo [0] S_

variable [Facts]

def fn_part1 {F : FTy → Type} [FloatOps F] (main_v13 : IVec S_ 1) (main_v16 : IVec S8576 1) : IVec S_ 1 :=
  let main_c_5 : IVec S_ 1 := constantI S_ 1 1#1
  let main_v17 : IVec S_ 1 := (fun x v => Host.reduce IntOp.andi x v reducesTo_S8576_S_d0 h_S_) main_v16 main_c_5
  let main_v18 : IVec S_ 1 := andi main_v13 main_v17
  main_v18

def fn {F : FTy → Type} [FloatOps F] (main_arg0 : FVec F S16x512x8576 .f32) (main_arg1 : FVec F S16x512x8576 .f32) (main_arg2 : FVec F S8576 .f32) (main_arg3 : FVec F S8576 .f32) : IVec S_ 1 :=
  let main_v0 : FVec F S16x512x8576 .f32 := Host.absf main_arg0
  let main_cst : FVec F S_ .f32 := constant S_ .f32 0x7F800000#32
  let main_v1 : FVec F S16x512x8576 .f32 := broadcastInDim S16x512x8576 ![] bcast_S_S16x512x8576 main_cst
  let main_v2 : IVec S16x512x8576 1 := cmpf .olt main_v0 main_v1
  let main_c : IVec S_ 1 := constantI S_ 1 1#1
  let main_v3 : IVec S_ 1 := (fun x v => Host.reduce IntOp.andi x v reducesTo_S16x512x8576_S_d0_1_2 h_S_) main_v2 main_c
  let main_v4 : FVec F S16x512x8576 .f32 := Host.absf main_arg1
  let main_cst_0 : FVec F S_ .f32 := constant S_ .f32 0x7F800000#32
  let main_v5 : FVec F S16x512x8576 .f32 := broadcastInDim S16x512x8576 ![] bcast_S_S16x512x8576 main_cst_0
  let main_v6 : IVec S16x512x8576 1 := cmpf .olt main_v4 main_v5
  let main_c_1 : IVec S_ 1 := constantI S_ 1 1#1
  let main_v7 : IVec S_ 1 := (fun x v => Host.reduce IntOp.andi x v reducesTo_S16x512x8576_S_d0_1_2 h_S_) main_v6 main_c_1
  let main_v8 : IVec S_ 1 := andi main_v3 main_v7
  let main_v9 : FVec F S8576 .f32 := Host.absf main_arg2
  let main_cst_2 : FVec F S_ .f32 := constant S_ .f32 0x7F800000#32
  let main_v10 : FVec F S8576 .f32 := broadcastInDim S8576 ![] bcast_S_S8576 main_cst_2
  let main_v11 : IVec S8576 1 := cmpf .olt main_v9 main_v10
  let main_c_3 : IVec S_ 1 := constantI S_ 1 1#1
  let main_v12 : IVec S_ 1 := (fun x v => Host.reduce IntOp.andi x v reducesTo_S8576_S_d0 h_S_) main_v11 main_c_3
  let main_v13 : IVec S_ 1 := andi main_v8 main_v12
  let main_v14 : FVec F S8576 .f32 := Host.absf main_arg3
  let main_cst_4 : FVec F S_ .f32 := constant S_ .f32 0x7F800000#32
  let main_v15 : FVec F S8576 .f32 := broadcastInDim S8576 ![] bcast_S_S8576 main_cst_4
  let main_v16 : IVec S8576 1 := cmpf .olt main_v14 main_v15
  fn_part1 (F := F) main_v13 main_v16
-- ==== Kernel.lean ====
abbrev S16x512x8576 : Shape := ⟨3, ![16, 512, 8576]⟩
abbrev S8576 : Shape := ⟨1, ![8576]⟩
abbrev S8192x8576 : Shape := ⟨2, ![8192, 8576]⟩
abbrev S1x8576 : Shape := ⟨2, ![1, 8576]⟩
abbrev S512x8576 : Shape := ⟨2, ![512, 8576]⟩
abbrev S_ : Shape := ⟨0, ![]⟩
abbrev S128x8576 : Shape := ⟨2, ![128, 8576]⟩

abbrev nBuf : Space → Nat
  | .hbm => 24
  | .vmem => 14
  | .smem => 0
  | _ => 0

abbrev bufTy : (tb : Table) → Fin (tcTables nBuf tb) → BufTy
  | .hbm, ⟨0, _⟩ => ⟨S16x512x8576, .f32⟩
  | .hbm, ⟨1, _⟩ => ⟨S16x512x8576, .f32⟩
  | .hbm, ⟨2, _⟩ => ⟨S8576, .f32⟩
  | .hbm, ⟨3, _⟩ => ⟨S8576, .f32⟩
  | .hbm, ⟨4, _⟩ => ⟨S8192x8576, .f32⟩
  | .hbm, ⟨5, _⟩ => ⟨S8192x8576, .f32⟩
  | .hbm, ⟨6, _⟩ => ⟨S1x8576, .f32⟩
  | .hbm, ⟨7, _⟩ => ⟨S1x8576, .f32⟩
  | .hbm, ⟨8, _⟩ => ⟨S_, .f32⟩
  | .hbm, ⟨9, _⟩ => ⟨S1x8576, .f32⟩
  | .hbm, ⟨10, _⟩ => ⟨S1x8576, .f32⟩
  | .hbm, ⟨11, _⟩ => ⟨S_, .f32⟩
  | .hbm, ⟨12, _⟩ => ⟨S1x8576, .f32⟩
  | .hbm, ⟨13, _⟩ => ⟨S1x8576, .f32⟩
  | .hbm, ⟨14, _⟩ => ⟨S1x8576, .f32⟩
  | .hbm, ⟨15, _⟩ => ⟨S1x8576, .f32⟩
  | .hbm, ⟨16, _⟩ => ⟨S_, .f32⟩
  | .hbm, ⟨17, _⟩ => ⟨S1x8576, .f32⟩
  | .hbm, ⟨18, _⟩ => ⟨S1x8576, .f32⟩
  | .hbm, ⟨19, _⟩ => ⟨S1x8576, .f32⟩
  | .hbm, ⟨20, _⟩ => ⟨S1x8576, .f32⟩
  | .hbm, ⟨21, _⟩ => ⟨S1x8576, .f32⟩
  | .hbm, ⟨22, _⟩ => ⟨S8192x8576, .f32⟩
  | .hbm, ⟨23, _⟩ => ⟨S16x512x8576, .f32⟩
  | .local _ .vmem, ⟨0, _⟩ => ⟨S512x8576, .f32⟩
  | .local _ .vmem, ⟨1, _⟩ => ⟨S512x8576, .f32⟩
  | .local _ .vmem, ⟨2, _⟩ => ⟨S1x8576, .f32⟩
  | .local _ .vmem, ⟨3, _⟩ => ⟨S1x8576, .f32⟩
  | .local _ .vmem, ⟨4, _⟩ => ⟨S128x8576, .f32⟩
  | .local _ .vmem, ⟨5, _⟩ => ⟨S128x8576, .f32⟩
  | .local _ .vmem, ⟨6, _⟩ => ⟨S128x8576, .f32⟩
  | .local _ .vmem, ⟨7, _⟩ => ⟨S128x8576, .f32⟩
  | .local _ .vmem, ⟨8, _⟩ => ⟨S1x8576, .f32⟩
  | .local _ .vmem, ⟨9, _⟩ => ⟨S1x8576, .f32⟩
  | .local _ .vmem, ⟨10, _⟩ => ⟨S1x8576, .f32⟩
  | .local _ .vmem, ⟨11, _⟩ => ⟨S1x8576, .f32⟩
  | .local _ .vmem, ⟨12, _⟩ => ⟨S128x8576, .f32⟩
  | .local _ .vmem, ⟨13, _⟩ => ⟨S128x8576, .f32⟩
  | _, _ => ⟨S16x512x8576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x8576 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x8576 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x8576 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8576 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x8576 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x8576 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S128x8576 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S16x512x8576_S8192x8576 : S16x512x8576.ShapeCasts S8192x8576
  inb_S1x8576_S1x8576_0_0 : ∀ a, (![0, 0] : Fin 2 → Nat) a + S1x8576.size a ≤ S1x8576.size a
  h_S1x8576 : 0 < S1x8576.numel
  inb_S512x8576_S512x8576_0_0 : ∀ a, (![0, 0] : Fin 2 → Nat) a + S512x8576.size a ≤ S512x8576.size a
  h_S512x8576 : 0 < S512x8576.numel
  shapeCasts_S512x8576_S512x8576 : S512x8576.ShapeCasts S512x8576
  shapeCasts_S1x8576_S1x8576 : S1x8576.ShapeCasts S1x8576
  reduces_S512x8576_S8576 : S512x8576.Reduces [0] S8576
  shapeCasts_S8576_S1x8576 : S8576.ShapeCasts S1x8576
  bcast_S_S1x8576 : S_.BroadcastsInDim S1x8576 (![] : Fin 0 → Fin S1x8576.rank)
  inb_S128x8576_S128x8576_0_0 : ∀ a, (![0, 0] : Fin 2 → Nat) a + S128x8576.size a ≤ S128x8576.size a
  h_S128x8576 : 0 < S128x8576.numel
  shapeCasts_S128x8576_S128x8576 : S128x8576.ShapeCasts S128x8576
  broadcasts_S1x8576_S128x8576 : S1x8576.Broadcasts S128x8576
  shapeCasts_S8192x8576_S16x512x8576 : S8192x8576.ShapeCasts S16x512x8576
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8576.size a ≤ S8192x8576.size a
  hwx0_0 : ∀ i : grid0.Coords, EltTy.bits .f32 = 32 ∨ (Rect.block (s := S8192x8576) S512x8576.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8576.size a ≤ S1x8576.size a
  hwx0_1 : ∀ i : grid0.Coords, EltTy.bits .f32 = 32 ∨ (Rect.block (s := S1x8576) S1x8576.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8576.size a ≤ S1x8576.size a
  hwx0_2 : ∀ i : grid0.Coords, EltTy.bits .f32 = 32 ∨ (Rect.block (s := S1x8576) S1x8576.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x8576.size a ≤ S8192x8576.size a
  hwx1_0 : ∀ i : grid1.Coords, EltTy.bits .f32 = 32 ∨ (Rect.block (s := S8192x8576) S128x8576.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x8576.size a ≤ S8192x8576.size a
  hwx1_1 : ∀ i : grid1.Coords, EltTy.bits .f32 = 32 ∨ (Rect.block (s := S8192x8576) S128x8576.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8576.size a ≤ S1x8576.size a
  hwx1_2 : ∀ i : grid1.Coords, EltTy.bits .f32 = 32 ∨ (Rect.block (s := S1x8576) S1x8576.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8576.size a ≤ S1x8576.size a
  hwx1_3 : ∀ i : grid1.Coords, EltTy.bits .f32 = 32 ∨ (Rect.block (s := S1x8576) S1x8576.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x8576.size a ≤ S1x8576.size a
  hwx1_4 : ∀ i : grid1.Coords, EltTy.bits .f32 = 32 ∨ (Rect.block (s := S1x8576) S1x8576.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x8576.size a ≤ S1x8576.size a
  hwx1_5 : ∀ i : grid1.Coords, EltTy.bits .f32 = 32 ∨ (Rect.block (s := S1x8576) S1x8576.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x8576.size a ≤ S8192x8576.size a
  hwx1_6 : ∀ i : grid1.Coords, EltTy.bits .f32 = 32 ∨ (Rect.block (s := S8192x8576) S128x8576.size (cc1_transform_6 i) (hinb1_6 i)).WholeWords (EltTy.packing .f32)

variable [Facts₀]

abbrev win0_0 : Pipeline.Window sig grid0 :=
  Pipeline.Window.ofSpec (Memref.whole main_v0) S512x8576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2_0) S1x8576.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_1) S1x8576.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S128x8576.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S128x8576.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x8576.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x8576.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x8576.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x8576.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S128x8576.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S16x512x8576 : Shape := ⟨3, ![16, 512, 8576]⟩
abbrev S8576 : Shape := ⟨1, ![8576]⟩
abbrev S_ : Shape := ⟨0, ![]⟩
abbrev S1x1x8576 : Shape := ⟨3, ![1, 1, 8576]⟩

abbrev nBuf : Space → Nat
  | .hbm => 41
  | .vmem => 0
  | .smem => 0
  | _ => 0

abbrev bufTy : (tb : Table) → Fin (tcTables nBuf tb) → BufTy
  | .hbm, ⟨0, _⟩ => ⟨S16x512x8576, .f32⟩
  | .hbm, ⟨1, _⟩ => ⟨S16x512x8576, .f32⟩
  | .hbm, ⟨2, _⟩ => ⟨S8576, .f32⟩
  | .hbm, ⟨3, _⟩ => ⟨S8576, .f32⟩
  | .hbm, ⟨4, _⟩ => ⟨S_, .f32⟩
  | .hbm, ⟨5, _⟩ => ⟨S8576, .f32⟩
  | .hbm, ⟨6, _⟩ => ⟨S_, .f32⟩
  | .hbm, ⟨7, _⟩ => ⟨S8576, .f32⟩
  | .hbm, ⟨8, _⟩ => ⟨S8576, .f32⟩
  | .hbm, ⟨9, _⟩ => ⟨S1x1x8576, .f32⟩
  | .hbm, ⟨10, _⟩ => ⟨S16x512x8576, .f32⟩
  | .hbm, ⟨11, _⟩ => ⟨S16x512x8576, .f32⟩
  | .hbm, ⟨12, _⟩ => ⟨S16x512x8576, .f32⟩
  | .hbm, ⟨13, _⟩ => ⟨S_, .f32⟩
  | .hbm, ⟨14, _⟩ => ⟨S8576, .f32⟩
  | .hbm, ⟨15, _⟩ => ⟨S_, .f32⟩
  | .hbm, ⟨16, _⟩ => ⟨S8576, .f32⟩
  | .hbm, ⟨17, _⟩ => ⟨S8576, .f32⟩
  | .hbm, ⟨18, _⟩ => ⟨S1x1x8576, .f32⟩
  | .hbm, ⟨19, _⟩ => ⟨S16x512x8576, .f32⟩
  | .hbm, ⟨20, _⟩ => ⟨S16x512x8576, .f32⟩
  | .hbm, ⟨21, _⟩ => ⟨S_, .f32⟩
  | .hbm, ⟨22, _⟩ => ⟨S8576, .f32⟩
  | .hbm, ⟨23, _⟩ => ⟨S8576, .f32⟩
  | .hbm, ⟨24, _⟩ => ⟨S8576, .f32⟩
  | .hbm, ⟨25, _⟩ => ⟨S1x1x8576, .f32⟩
  | .hbm, ⟨26, _⟩ => ⟨S16x512x8576, .f32⟩
  | .hbm, ⟨27, _⟩ => ⟨S16x512x8576, .f32⟩
  | .hbm, ⟨28, _⟩ => ⟨S1x1x8576, .f32⟩
  | .hbm, ⟨29, _⟩ => ⟨S16x512x8576, .f32⟩
  | .hbm, ⟨30, _⟩ => ⟨S16x512x8576, .f32⟩
  | .hbm, ⟨31, _⟩ => ⟨S1x1x8576, .f32⟩
  | .hbm, ⟨32, _⟩ => ⟨S16x512x8576, .f32⟩
  | .hbm, ⟨33, _⟩ => ⟨S16x512x8576, .f32⟩
  | .hbm, ⟨34, _⟩ => ⟨S_, .f32⟩
  | .hbm, ⟨35, _⟩ => ⟨S16x512x8576, .f32⟩
  | .hbm, ⟨36, _⟩ => ⟨S16x512x8576, .f32⟩
  | .hbm, ⟨37, _⟩ => ⟨S_, .f32⟩
  | .hbm, ⟨38, _⟩ => ⟨S16x512x8576, .f32⟩
  | .hbm, ⟨39, _⟩ => ⟨S16x512x8576, .f32⟩
  | .hbm, ⟨40, _⟩ => ⟨S16x512x8576, .f32⟩
  | _, _ => ⟨S16x512x8576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  reducesTo_S16x512x8576_S8576_d0_1 : S16x512x8576.ReducesTo [0, 1] S8576
  h_S_ : 0 < S_.numel
  bcast_S_S8576 : S_.BroadcastsInDim S8576 (![] : Fin 0 → Fin S8576.rank)
  bcast_S8576_S1x1x8576_2 : S8576.BroadcastsInDim S1x1x8576 (![2] : Fin 1 → Fin S1x1x8576.rank)
  bcast_S1x1x8576_S16x512x8576_0_1_2 : S1x1x8576.BroadcastsInDim S16x512x8576 (![0, 1, 2] : Fin 3 → Fin S16x512x8576.rank)
  bcast_S_S16x512x8576 : S_.BroadcastsInDim S16x512x8576 (![] : Fin 0 → Fin S16x512x8576.rank)

variable [Facts₀]

class Facts : Prop extends Facts₀ where

variable [Facts]
-- ==== Proof.Moments.lean ====
/-
  The mathematics both programs share, stated once and away from either program.

  For an array `x` of shape [16, 512, 8576] and a channel `d`, write `S d = Σ_{a,b} x[a,b,d]` and
  `Q d = Σ_{a,b} x[a,b,d]²` (8192 terms each), `μ d = S d / 8192`. One program takes the channel's variance as
  `Q d / 8192 − μ d · μ d`, the other as `(Σ_{a,b} (x[a,b,d] − μ d)²) / 8192`. Over the reals these agree:
  `Σ (x − μ)² = Q − 2 μ S + 8192 μ² = Q − S² / 8192` because `S = 8192 μ`. The step uses distributivity, which fails
  at the infinities of the extended reals, so it is taken where every entry of `x` is a real number.
  Both programs then form `(x − μ) · rsqrt(var + ε) · γ + β` and add `noise · 0.05` and `0`, grouped
  `(y + n) + 0` in one and `y + (n + 0)` in the other: addition of extended reals is associative.
-/
import Idealize.ShloMosaic.PureOps.Ideal
import Idealize.ShloMosaic.PureOps.Ideal.Laws
import Idealize.ShloMosaic.Lib.ValueIdx

noncomputable section

open scoped BigOperators

namespace Cert.Moments

open Idealize.ShloMosaic Idealize.ShloMosaic.ValueIdx

/-! ## The literal words -/

/-- The word `0x46000000` is the real number 8192, the count of terms in a channel's sums. -/
theorem ofBits_count : Ideal.ofBits .f32 0x46000000#32 = ((8192 : ℝ) : EReal) := by
  simp [Ideal.ofBits, Ideal.ieee, -EReal.coe_mul]; norm_num

/-- The count, ε, the noise scale and zero, as the extended reals their words denote. -/
abbrev cN : EReal := Ideal.ofBits .f32 0x46000000#32
abbrev cEps : EReal := Ideal.ofBits .f32 0x3727C5AC#32
abbrev cStd : EReal := Ideal.ofBits .f32 0x3D4CCCCD#32
abbrev cZero : EReal := Ideal.ofBits .f32 0x00000000#32

/-! ## The variance identity over the reals -/

/-- Mean of squares minus square of mean is the mean of squared deviations, for any finite family of reals whose
    number of terms is the divisor. -/
theorem var_real {ι : Type*} [Fintype ι] (a : ι → ℝ) (n : ℝ) (hn : n ≠ 0) (hc : (Fintype.card ι : ℝ) = n) :
    (∑ i, a i * a i) / n - (∑ i, a i) / n * ((∑ i, a i) / n)
      = (∑ i, (a i - (∑ i, a i) / n) * (a i - (∑ i, a i) / n)) / n := by
  have h : ∑ i, (a i - (∑ i, a i) / n) * (a i - (∑ i, a i) / n)
      = ∑ i, a i * a i - 2 * ((∑ i, a i) / n) * ∑ i, a i + n * ((∑ i, a i) / n * ((∑ i, a i) / n)) := by
    have e : ∀ i, (a i - (∑ i, a i) / n) * (a i - (∑ i, a i) / n)
        = a i * a i - 2 * ((∑ i, a i) / n) * a i + (∑ i, a i) / n * ((∑ i, a i) / n) := fun i => by ring
    simp only [e, Finset.sum_add_distrib, Finset.sum_sub_distrib, ← Finset.mul_sum, Finset.sum_const,
      Finset.card_univ, nsmul_eq_mul, hc]
    ring
  rw [h]
  field_simp
  ring

/-- A finite sum of reals, read in the extended reals, is the sum of the readings. -/
theorem coe_sum {ι : Type*} (s : Finset ι) (f : ι → ℝ) : ∑ i ∈ s, (f i : EReal) = ((∑ i ∈ s, f i : ℝ) : EReal) := by
  classical
  induction s using Finset.induction_on with
  | empty => simp
  | insert _ _ h ih => rw [Finset.sum_insert h, Finset.sum_insert h, ih, EReal.coe_add]

/-! ## A channel's moments -/

/-- The index type of the [16, 512, 8576] arrays. -/
abbrev X3 : Type := (⟨3, ![16, 512, 8576]⟩ : Shape).Idx
abbrev X1 : Type := (⟨1, ![8576]⟩ : Shape).Idx

/-- The sum of a channel's 8192 entries, and of their squares. -/
def chSum (x : X3 → EReal) (d : Fin 8576) : EReal := ∑ a : Fin 16, ∑ b : Fin 512, x (ix3 a b d)
def chSumSq (x : X3 → EReal) (d : Fin 8576) : EReal := ∑ a : Fin 16, ∑ b : Fin 512, x (ix3 a b d) * x (ix3 a b d)
/-- The channel's mean. -/
def chMean (x : X3 → EReal) (d : Fin 8576) : EReal := Ideal.div (chSum x d) cN
/-- The channel's variance as mean of squares minus square of mean … -/
def varMoments (x : X3 → EReal) (d : Fin 8576) : EReal := Ideal.div (chSumSq x d) cN - chMean x d * chMean x d
/-- … and as the mean of the squared deviations from the mean. -/
def varDeviations (x : X3 → EReal) (d : Fin 8576) : EReal :=
  Ideal.div (∑ a : Fin 16, ∑ b : Fin 512, (x (ix3 a b d) - chMean x d) * (x (ix3 a b d) - chMean x d)) cN

/-- Where every entry is a real number the two variances agree. -/
theorem varMoments_eq_varDeviations (x : X3 → EReal) (hx : ∀ i, ∃ r : ℝ, x i = (r : EReal)) (d : Fin 8576) :
    varMoments x d = varDeviations x d := by
  choose r hr using hx
  have h8 : (8192 : ℝ) ≠ 0 := by norm_num
  have hS : chSum x d = ((∑ p : Fin 16 × Fin 512, r (ix3 p.1 p.2 d) : ℝ) : EReal) := by
    unfold chSum
    simp only [hr, coe_sum]
    rw [Fintype.sum_prod_type]
  have hQ : chSumSq x d = ((∑ p : Fin 16 × Fin 512, r (ix3 p.1 p.2 d) * r (ix3 p.1 p.2 d) : ℝ) : EReal) := by
    unfold chSumSq
    simp only [hr, ← EReal.coe_mul, coe_sum]
    rw [Fintype.sum_prod_type]
  have hM : chMean x d = (((∑ p : Fin 16 × Fin 512, r (ix3 p.1 p.2 d)) / 8192 : ℝ) : EReal) := by
    unfold chMean cN
    rw [hS, ofBits_count, Ideal.div_coe h8, ← EReal.coe_mul]
    congr 1; ring
  unfold varMoments varDeviations
  rw [hQ, hM]
  simp only [hr, ← EReal.coe_sub, ← EReal.coe_mul, coe_sum]
  unfold cN
  rw [ofBits_count, Ideal.div_coe h8, Ideal.div_coe h8, ← EReal.coe_mul, ← EReal.coe_mul, ← EReal.coe_sub]
  congr 1
  have hc : (Fintype.card (Fin 16 × Fin 512) : ℝ) = 8192 := by simp
  have := var_real (fun p : Fin 16 × Fin 512 => r (ix3 p.1 p.2 d)) 8192 h8 hc
  rw [Fintype.sum_prod_type (f := fun p : Fin 16 × Fin 512 =>
    (r (ix3 p.1 p.2 d) - (∑ p : Fin 16 × Fin 512, r (ix3 p.1 p.2 d)) / 8192)
      * (r (ix3 p.1 p.2 d) - (∑ p : Fin 16 × Fin 512, r (ix3 p.1 p.2 d)) / 8192))] at this
  simp only [mul_one_div]
  exact this

/-! ## The result, entry by entry -/

/-- One program's entry at (a, b, d): normalised by the variance from the moments, the noise term then zero added last. -/
def outMoments (x nz : X3 → EReal) (g bt : X1 → EReal) (a : Fin 16) (b : Fin 512) (d : Fin 8576) : EReal :=
  (((x (ix3 a b d) - chMean x d) * Ideal.rsqrt (varMoments x d + cEps)) * g (ix1 d) + bt (ix1 d) + nz (ix3 a b d) * cStd) + cZero

/-- The other program's entry at (a, b, d): normalised by the variance from the deviations, the noise term with its zero
    added as one summand. -/
def outDeviations (x nz : X3 → EReal) (g bt : X1 → EReal) (a : Fin 16) (b : Fin 512) (d : Fin 8576) : EReal :=
  (((x (ix3 a b d) - chMean x d) * Ideal.rsqrt (varDeviations x d + cEps)) * g (ix1 d) + bt (ix1 d)) + (nz (ix3 a b d) * cStd + cZero)

/-- Where every entry of `x` is a real number the two entries are equal. -/
theorem outMoments_eq_outDeviations (x nz : X3 → EReal) (g bt : X1 → EReal) (hx : ∀ i, ∃ r : ℝ, x i = (r : EReal))
    (a : Fin 16) (b : Fin 512) (d : Fin 8576) : outMoments x nz g bt a b d = outDeviations x nz g bt a b d := by
  unfold outMoments outDeviations
  rw [varMoments_eq_varDeviations x hx d, add_assoc]

/-- The result array: the entry function read at an index's coordinates. -/
def result (x nz : X3 → EReal) (g bt : X1 → EReal) : X3 → EReal := fun i => outDeviations x nz g bt (i 0) (i 1) (i 2)

end Cert.Moments

end
-- ==== Proof.Stats.lean ====
/-
  Region 0, the statistics pass, read as values at the ideal instance. Its grid has 16 points; point `s` loads rows
  `512 s … 512 s + 511` of the [8192, 8576] array and adds, per column, their sum into one [1, 8576] block and the sum
  of their squares into another, both reset to zero at point 0 and written back once, after point 15. So the two
  output arrays end holding every column's sum over all 8192 rows, and the sum of the squares.
-/
import proofs.«143405_j39367670235562_1_alg».proof.Proof.Gen.KernelIdeal.Frame
import proofs.«143405_j39367670235562_1_alg».proof.Proof.Moments
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Stats

open Cert.KernelIdeal Cert.KernelIdeal.Gen
open Idealize.ShloMosaic Idealize.ShloMosaic.TcCoe Idealize.ShloMosaic.ValueIdx Idealize.SL.Sem
open Idealize.ShloMosaic.Pipeline (Dat)

/-- Row `512 s + k` of the [8192, 8576] array: row `k` of the block point `s` loads. -/
def row (s : Fin 16) (k : Fin 512) : Fin 8192 := ⟨512 * s.val + k.val, by have := s.isLt; have := k.isLt; omega⟩

/-- Column `d`'s sum over all 8192 rows, block by block, and the sum of the squares. -/
def colSum (X : S8192x8576.Idx → EReal) (d : Fin 8576) : EReal := ∑ s : Fin 16, ∑ k : Fin 512, X (ix2 (row s k) d)
def colSumSq (X : S8192x8576.Idx → EReal) (d : Fin 8576) : EReal :=
  ∑ s : Fin 16, ∑ k : Fin 512, X (ix2 (row s k) d) * X (ix2 (row s k) d)

/-! ## What each case of the body leaves, as the body's own arithmetic -/

section Pieces

variable {F : FTy → Type} [FloatOps F]

/-- Both offsets of a whole-block access are zero. -/
theorem hz : (![0, 0] : Fin 2 → Nat) = fun _ => 0 := funext fun a => by fin_cases a <;> rfl

/-- Points 1 to 15, first output: the one store covers the block, so the block ends at the old block plus the
    column sums of the loaded rows. -/
theorem outB1 (c : Dev nD) (i : grid0.Coords) (a1 : Memref sig .tc .vmem S512x8576 .f32) (h1 : a1.IsWhole)
    (a2 : Memref sig .tc .vmem S1x8576 .f32) (h2 : a2.IsWhole) (a3 : Memref sig .tc .vmem S1x8576 .f32) (h3 : a3.IsWhole)
    (hc : ¬cond0_0 i) (x : Vec F S512x8576 .f32) (xo1 xo2 : Vec F S1x8576 .f32) :
    out0_B_1 c i a1 h1 a2 h2 a3 h3 hc x xo1 xo2 = k0_pay4 x xo1 := by
  unfold out0_B_1
  rw [View.read_writes_eq_canon _ _ _ (cover0_B_1 c i a1 h1 a2 h2 a3 h3 hc x xo1 xo2)]
  unfold kernelRun0_B
  dsimp only
  sl_unfold_words
  rw [View.canon_unit_zero hz]
  simp only [View.readAt_eq_ld, h1.read_unread, h2.read_unread, View.ld_unit_zero (S := S512x8576) hz,
    View.ld_unit_zero (S := S1x8576) hz]

/-- Points 1 to 15, second output: the old block plus the column sums of the squares of the loaded rows. -/
theorem outB2 (c : Dev nD) (i : grid0.Coords) (a1 : Memref sig .tc .vmem S512x8576 .f32) (h1 : a1.IsWhole)
    (a2 : Memref sig .tc .vmem S1x8576 .f32) (h2 : a2.IsWhole) (a3 : Memref sig .tc .vmem S1x8576 .f32) (h3 : a3.IsWhole)
    (hc : ¬cond0_0 i) (x : Vec F S512x8576 .f32) (xo1 xo2 : Vec F S1x8576 .f32) :
    out0_B_2 c i a1 h1 a2 h2 a3 h3 hc x xo1 xo2 = k0_pay5 x xo2 := by
  unfold out0_B_2
  rw [View.read_writes_eq_canon _ _ _ (cover0_B_2 c i a1 h1 a2 h2 a3 h3 hc x xo1 xo2)]
  unfold kernelRun0_B
  dsimp only
  sl_unfold_words
  rw [View.canon_unit_zero hz]
  simp only [View.readAt_eq_ld, h1.read_unread, h3.read_unread, View.ld_unit_zero (S := S512x8576) hz,
    View.ld_unit_zero (S := S1x8576) hz]

/-- Point 0, first output: the block is reset to the zero block, read back, and the column sums of the loaded
    rows are added. -/
theorem outA1 (c : Dev nD) (i : grid0.Coords) (a1 : Memref sig .tc .vmem S512x8576 .f32) (h1 : a1.IsWhole)
    (a2 : Memref sig .tc .vmem S1x8576 .f32) (h2 : a2.IsWhole) (a3 : Memref sig .tc .vmem S1x8576 .f32) (h3 : a3.IsWhole)
    (hc : cond0_0 i) (x : Vec F S512x8576 .f32) :
    out0_A_1 c i a1 h1 a2 h2 a3 h3 hc x = k0_pay4 x k0_pay1 := by
  unfold out0_A_1
  rw [View.read_writes_eq_canon _ _ _ (cover0_A_1 c i a1 h1 a2 h2 a3 h3 hc x)]
  unfold kernelRun0_A
  dsimp only
  sl_unfold_words
  rw [View.canon_cons_unit_zero (S := S1x8576) hz, View.readCov_unit_zero (S := S1x8576) _ hz]
  simp only [View.readAt_eq_ld, h1.read_unread, View.ld_unit_zero (S := S512x8576) hz]

/-- Point 0, second output: reset to the zero block, then the column sums of the squares of the loaded rows. -/
theorem outA2 (c : Dev nD) (i : grid0.Coords) (a1 : Memref sig .tc .vmem S512x8576 .f32) (h1 : a1.IsWhole)
    (a2 : Memref sig .tc .vmem S1x8576 .f32) (h2 : a2.IsWhole) (a3 : Memref sig .tc .vmem S1x8576 .f32) (h3 : a3.IsWhole)
    (hc : cond0_0 i) (x : Vec F S512x8576 .f32) :
    out0_A_2 c i a1 h1 a2 h2 a3 h3 hc x = k0_pay5 x k0_pay2 := by
  unfold out0_A_2
  rw [View.read_writes_eq_canon _ _ _ (cover0_A_2 c i a1 h1 a2 h2 a3 h3 hc x)]
  unfold kernelRun0_A
  dsimp only
  sl_unfold_words
  rw [View.canon_cons_unit_zero (S := S1x8576) hz, View.readCov_unit_zero (S := S1x8576) _ hz]
  simp only [View.readAt_eq_ld, h1.read_unread, View.ld_unit_zero (S := S512x8576) hz]

end Pieces

/-! ## The body's arithmetic at an entry, over the extended reals -/

/-- Inserting row `k` above column `d` gives the entry (k, d) of the loaded block. -/
theorem lift_eq (d : Fin 8576) (k : Fin 512) :
    reduces_S512x8576_S8576.lift (ix1 d) k = (ix2 k d : S512x8576.Idx) := by
  funext a
  match a with
  | ⟨0, _⟩ => rfl
  | ⟨1, _⟩ => rfl

/-- Entry (0, d) of a [1, 8576] block, its unit axis dropped, is entry d. -/
theorem tail_eq (d : Fin 8576) :
    (fun a : Fin 1 => (ix2 (0 : Fin 1) d : S1x8576.Idx) a.succ) = (ix1 d : S8576.Idx) := by
  funext a
  match a with
  | ⟨0, _⟩ => rfl

/-- The reduction along the rows, recast to [1, 8576], at (0, d): the sum of column `d` over the 512 rows. -/
theorem colsum_apply (y : S512x8576.Idx → EReal) (d : Fin 8576) :
    shapeCast S1x8576 (multiReduction (F := Ideal) .add [0] S8576 y 0x00000000#32 reduces_S512x8576_S8576 (.inl rfl) rfl)
      shapeCasts_S8576_S1x8576 (ix2 0 d) = ∑ k : Fin 512, y (ix2 k d) := by
  refine (shapeCast_addUnit_apply ![8576] _ _ (ix2 0 d)).trans ?_
  refine (congrArg _ (tail_eq d)).trans ?_
  refine (Ideal.multiReduction_add_single y _ reduces_S512x8576_S8576 _ _ (ix1 d)).trans ?_
  exact Finset.sum_congr rfl fun k _ => congrArg y (lift_eq d k)

/-- The first output's update at (0, d): the old entry plus the sum of column `d` of the loaded block. -/
theorem pay4_apply (x : S512x8576.Idx → EReal) (acc : S1x8576.Idx → EReal) (d : Fin 8576) :
    k0_pay4 (F := Ideal) x acc (ix2 0 d) = acc (ix2 0 d) + ∑ k : Fin 512, x (ix2 k d) := by
  unfold k0_pay4 k0_pay3
  refine (addf_apply _ _ _).trans ?_
  refine congrArg₂ (· + ·) ?_ ?_
  · exact congrFun (shapeCast_self acc _) (ix2 0 d)
  · refine (colsum_apply _ d).trans ?_
    exact Finset.sum_congr rfl fun k _ => congrFun (shapeCast_self x _) (ix2 k d)

/-- The second output's update at (0, d): the old entry plus the sum of the squares of column `d`. -/
theorem pay5_apply (x : S512x8576.Idx → EReal) (acc : S1x8576.Idx → EReal) (d : Fin 8576) :
    k0_pay5 (F := Ideal) x acc (ix2 0 d) = acc (ix2 0 d) + ∑ k : Fin 512, x (ix2 k d) * x (ix2 k d) := by
  unfold k0_pay5 k0_pay3
  refine (addf_apply _ _ _).trans ?_
  refine congrArg₂ (· + ·) ?_ ?_
  · exact congrFun (shapeCast_self acc _) (ix2 0 d)
  · refine (colsum_apply _ d).trans ?_
    refine Finset.sum_congr rfl fun k _ => ?_
    refine (mulf_apply _ _ _).trans ?_
    exact congrArg₂ (· * ·) (congrFun (shapeCast_self x _) (ix2 k d)) (congrFun (shapeCast_self x _) (ix2 k d))

/-- The two reset blocks are zero everywhere. -/
theorem pay1_apply (d : Fin 8576) : k0_pay1 (F := Ideal) (ix2 0 d) = 0 := by
  unfold k0_pay1
  exact Ideal.ofBits_zero_f32

theorem pay2_apply (d : Fin 8576) : k0_pay2 (F := Ideal) (ix2 0 d) = 0 := by
  unfold k0_pay2
  exact Ideal.ofBits_zero_f32

/-- Column `d`'s sum over the 512 rows point `s` loads (zero past the grid), and the sum of the squares. -/
def blkSum (X : S8192x8576.Idx → EReal) (d : Fin 8576) (s : ℕ) : EReal :=
  if h : s < 16 then ∑ k : Fin 512, X (ix2 (row ⟨s, h⟩ k) d) else 0
def blkSumSq (X : S8192x8576.Idx → EReal) (d : Fin 8576) (s : ℕ) : EReal :=
  if h : s < 16 then ∑ k : Fin 512, X (ix2 (row ⟨s, h⟩ k) d) * X (ix2 (row ⟨s, h⟩ k) d) else 0

/-- The sums over all rows are the sums of the sixteen points' sums. -/
theorem colSum_eq (X : S8192x8576.Idx → EReal) (d : Fin 8576) :
    colSum X d = ∑ s ∈ Finset.range 16, blkSum X d s := by
  rw [← Fin.sum_univ_eq_sum_range (fun s => blkSum X d s) 16]
  exact Finset.sum_congr rfl fun s _ => by unfold blkSum; rw [dif_pos s.isLt]

theorem colSumSq_eq (X : S8192x8576.Idx → EReal) (d : Fin 8576) :
    colSumSq X d = ∑ s ∈ Finset.range 16, blkSumSq X d s := by
  rw [← Fin.sum_univ_eq_sum_range (fun s => blkSumSq X d s) 16]
  exact Finset.sum_congr rfl fun s _ => by unfold blkSumSq; rw [dif_pos s.isLt]

variable (V : (c : Dev nD) → (b : Ref sig .tc) → Buf (Elt Ideal) ((c : Thread nD τ).loc b))

/-! ## The loaded block and the two running blocks, as arrays of extended reals -/

/-- The block of rows point `t` loads. -/
abbrev xblk (c : Dev nD) (t : Fin cfg0.N) : S512x8576.Idx → EReal := iblk0 (F := Ideal) V c 0 t
/-- What the two output blocks hold after point `n`. -/
abbrev acc1 (c : Dev nD) (n : ℕ) (hn : n < cfg0.N) : S1x8576.Idx → EReal := (outsAt0 (F := Ideal) V c n hn).1
abbrev acc2 (c : Dev nD) (n : ℕ) (hn : n < cfg0.N) : S1x8576.Idx → EReal := (outsAt0 (F := Ideal) V c n hn).2

/-- Point `t`'s block index is (t, 0). -/
theorem index0 : ∀ t : Fin cfg0.N, win0_0.index t 0 = t.val ∧ win0_0.index t 1 = 0 :=
  (by decide +kernel : ∀ t : Fin grid0.N, win0_0.index t 0 = t.val ∧ win0_0.index t 1 = 0)

/-- Entry (k, d) of the block point `t` loads is entry (512 t + k, d) of the array: the block's offset is its
    index times its size. -/
theorem xblk_apply (c : Dev nD) (t : Fin cfg0.N) (ht : t.val < 16) (k : Fin 512) (d : Fin 8576) :
    xblk V c t (ix2 k d) = (V c main_v0 : S8192x8576.Idx → EReal) (ix2 (row ⟨t.val, ht⟩ k) d) := by
  have hi := index0 t
  unfold xblk iblk0
  rw [View.read_apply]
  show V c main_v0 _ = V c main_v0 _
  congr 1
  funext a
  apply Fin.ext
  match a with
  | ⟨0, _⟩ => show win0_0.index t 0 * 512 + 1 * k.val = 512 * t.val + k.val; rw [hi.1]; omega
  | ⟨1, _⟩ => show win0_0.index t 1 * 8576 + 1 * d.val = d.val; rw [hi.2]; omega

/-- So column `d` of that block sums to point `t`'s share of the column's sum, and likewise the squares. -/
theorem xblk_sum (c : Dev nD) (t : Fin cfg0.N) (d : Fin 8576) :
    ∑ k : Fin 512, xblk V c t (ix2 k d) = blkSum (V c main_v0) d t.val := by
  have ht : t.val < 16 := lt_of_lt_of_eq t.isLt N_0
  unfold blkSum
  rw [dif_pos ht]
  exact Finset.sum_congr rfl fun k _ => xblk_apply V c t ht k d

theorem xblk_sumsq (c : Dev nD) (t : Fin cfg0.N) (d : Fin 8576) :
    ∑ k : Fin 512, xblk V c t (ix2 k d) * xblk V c t (ix2 k d) = blkSumSq (V c main_v0) d t.val := by
  have ht : t.val < 16 := lt_of_lt_of_eq t.isLt N_0
  unfold blkSumSq
  rw [dif_pos ht]
  exact Finset.sum_congr rfl fun k _ => by rw [xblk_apply V c t ht k d]

/-! ## The running blocks, point by point -/

/-- After point 0 the blocks are the updates of the zero blocks by the first block of rows. -/
theorem acc_zero (c : Dev nD) (hn : 0 < cfg0.N) :
    acc1 V c 0 hn = k0_pay4 (F := Ideal) (xblk V c ⟨0, hn⟩) (k0_pay1 (F := Ideal))
      ∧ acc2 V c 0 hn = k0_pay5 (F := Ideal) (xblk V c ⟨0, hn⟩) (k0_pay2 (F := Ideal)) := by
  have h0 : (⟨0, hn⟩ : Fin cfg0.N).val % 16 = 0 := rfl
  constructor
  · show (outsAt0 (F := Ideal) V c 0 hn).1 = _
    rw [outsAt0_A V c ⟨0, hn⟩ h0]
    dsimp only
    exact outA1 (F := Ideal) c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) ((hcond0_0 ⟨0, hn⟩).mpr h0) (xblk V c ⟨0, hn⟩)
  · show (outsAt0 (F := Ideal) V c 0 hn).2 = _
    rw [outsAt0_A V c ⟨0, hn⟩ h0]
    dsimp only
    exact outA2 (F := Ideal) c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) ((hcond0_0 ⟨0, hn⟩).mpr h0) (xblk V c ⟨0, hn⟩)

/-- After a later point they are the updates, by that point's block of rows, of what the point before left. -/
theorem acc_succ (c : Dev nD) (n : ℕ) (hn : n + 1 < cfg0.N) :
    acc1 V c (n + 1) hn = k0_pay4 (F := Ideal) (xblk V c ⟨n + 1, hn⟩) (acc1 V c n (Nat.lt_of_succ_lt hn))
      ∧ acc2 V c (n + 1) hn = k0_pay5 (F := Ideal) (xblk V c ⟨n + 1, hn⟩) (acc2 V c n (Nat.lt_of_succ_lt hn)) := by
  have hN : cfg0.N = 16 := N_0
  have hB : ¬(⟨n + 1, hn⟩ : Fin cfg0.N).val % 16 = 0 := by dsimp only; omega
  constructor
  · show (outsAt0 (F := Ideal) V c (n + 1) hn).1 = _
    rw [outsAt0_B V c ⟨n + 1, hn⟩ hB]
    dsimp only
    exact outB1 (F := Ideal) c (grid0.coords ⟨n + 1, hn⟩) (ms0_0 ⟨n + 1, hn⟩) (hs0_0 ⟨n + 1, hn⟩) (ms0_1 ⟨n + 1, hn⟩)
      (hs0_1 ⟨n + 1, hn⟩) (ms0_2 ⟨n + 1, hn⟩) (hs0_2 ⟨n + 1, hn⟩) (fun h => hB ((hcond0_0 ⟨n + 1, hn⟩).mp h))
      (xblk V c ⟨n + 1, hn⟩) (acc1 V c n (Nat.lt_of_succ_lt hn)) (acc2 V c n (Nat.lt_of_succ_lt hn))
  · show (outsAt0 (F := Ideal) V c (n + 1) hn).2 = _
    rw [outsAt0_B V c ⟨n + 1, hn⟩ hB]
    dsimp only
    exact outB2 (F := Ideal) c (grid0.coords ⟨n + 1, hn⟩) (ms0_0 ⟨n + 1, hn⟩) (hs0_0 ⟨n + 1, hn⟩) (ms0_1 ⟨n + 1, hn⟩)
      (hs0_1 ⟨n + 1, hn⟩) (ms0_2 ⟨n + 1, hn⟩) (hs0_2 ⟨n + 1, hn⟩) (fun h => hB ((hcond0_0 ⟨n + 1, hn⟩).mp h))
      (xblk V c ⟨n + 1, hn⟩) (acc1 V c n (Nat.lt_of_succ_lt hn)) (acc2 V c n (Nat.lt_of_succ_lt hn))

/-- So after point `n` entry (0, d) of each block is the sum of the shares of points 0 to `n`: by induction on the
    point, each step adding that point's share. -/
theorem acc_apply (c : Dev nD) (d : Fin 8576) : ∀ (n : ℕ) (hn : n < cfg0.N),
    acc1 V c n hn (ix2 0 d) = ∑ s ∈ Finset.range (n + 1), blkSum (V c main_v0) d s
      ∧ acc2 V c n hn (ix2 0 d) = ∑ s ∈ Finset.range (n + 1), blkSumSq (V c main_v0) d s
  | 0, hn => by
    have h := acc_zero V c hn
    rw [h.1, h.2, pay4_apply, pay5_apply, pay1_apply, pay2_apply]
    simp only [zero_add, Finset.sum_range_one]
    exact ⟨xblk_sum V c ⟨0, hn⟩ d, xblk_sumsq V c ⟨0, hn⟩ d⟩
  | n + 1, hn => by
    have h := acc_succ V c n hn
    have ih := acc_apply c d n (Nat.lt_of_succ_lt hn)
    rw [h.1, h.2, pay4_apply, pay5_apply, ih.1, ih.2, Finset.sum_range_succ _ (n + 1), Finset.sum_range_succ _ (n + 1)]
    exact ⟨congrArg _ (xblk_sum V c ⟨n + 1, hn⟩ d), congrArg _ (xblk_sumsq V c ⟨n + 1, hn⟩ d)⟩

/-! ## The write-back: the last point's blocks are the whole result arrays -/

/-- The two result arrays: every column's sum over all rows, and the sum of the squares. -/
abbrev res1 (c : Dev nD) : Buf (Elt Ideal) ((c : Thread nD τ).loc main_v2_0) :=
  fun j : S1x8576.Idx => colSum (V c main_v0) (j 1)
abbrev res2 (c : Dev nD) : Buf (Elt Ideal) ((c : Thread nD τ).loc main_v2_1) :=
  fun j : S1x8576.Idx => colSumSq (V c main_v0) (j 1)

/-- After point 15 the running blocks hold them: sixteen shares make the whole column. -/
theorem acc1_last (c : Dev nD) (h : 15 < cfg0.N) : acc1 V c 15 h = res1 V c := by
  funext j
  obtain ⟨p, q, rfl⟩ : ∃ p q, j = ix2 p q := ⟨j 0, j 1, eq_ix2 j⟩
  obtain rfl : p = 0 := Subsingleton.elim _ _
  exact ((acc_apply V c q 15 h).1).trans (colSum_eq _ q).symm

theorem acc2_last (c : Dev nD) (h : 15 < cfg0.N) : acc2 V c 15 h = res2 V c := by
  funext j
  obtain ⟨p, q, rfl⟩ : ∃ p q, j = ix2 p q := ⟨j 0, j 1, eq_ix2 j⟩
  obtain rfl : p = 0 := Subsingleton.elim _ _
  exact ((acc_apply V c q 15 h).2).trans (colSumSq_eq _ q).symm

/-- At point 15 each output's block starts at (0, 0) and has the array's own extents [1, 8576]. -/
theorem out_rect1 : ∀ a : Fin 2, win0_1.index t0_15 a * win0_1.size a = 0
    ∧ win0_1.xsize (grid0.coords t0_15) a = main_v2_0.ty.shape.size a := by decide +kernel
theorem out_rect2 : ∀ a : Fin 2, win0_2.index t0_15 a * win0_2.size a = 0
    ∧ win0_2.xsize (grid0.coords t0_15) a = main_v2_1.ty.shape.size a := by decide +kernel

/-- The only point that writes back is 15. -/
theorem flush_point {t : Fin cfg0.N} (h : t.val % 16 = 15) : t = t0_15 := by
  have hN : cfg0.N = 16 := N_0
  have := t.isLt
  exact Fin.ext (show t.val = 15 by omega)

/-- What it writes back of the first output is the result array read through its block, which is the array. -/
theorem flushed_eq1 (c : Dev nD) (t : Fin cfg0.N) (hf : (cfg0.win 1).flush t = true) :
    (dat0 (F := Ideal) V c).flushed 1 t = ((cfg0.win 1).blk t).view.read (Elt Ideal) (res1 V c) := by
  obtain rfl : t = t0_15 := flush_point ((flush0_1 t).mp hf)
  show (cfg0.win 1).cut (grid0.coords t0_15) ((dat0 (F := Ideal) V c).after 1 t0_15) = _
  rw [after0_1]
  rw [show (outsAt0 (F := Ideal) V c t0_15.val t0_15.isLt).1 = res1 V c from acc1_last V c t0_15.isLt]
  have hz' : (fun a => win0_1.index t0_15 a * main_v2_0.ty.shape.size a) = fun _ => 0 := funext fun a => (out_rect1 a).1
  exact (Memref.read_access_unit_zero (Elt Ideal) main_v2_0 hz' (fun a => by rw [congrFun hz' a]; simp) (res1 V c)).symm

theorem flushed_eq2 (c : Dev nD) (t : Fin cfg0.N) (hf : (cfg0.win 2).flush t = true) :
    (dat0 (F := Ideal) V c).flushed 2 t = ((cfg0.win 2).blk t).view.read (Elt Ideal) (res2 V c) := by
  obtain rfl : t = t0_15 := flush_point ((flush0_2 t).mp hf)
  show (cfg0.win 2).cut (grid0.coords t0_15) ((dat0 (F := Ideal) V c).after 2 t0_15) = _
  rw [after0_2]
  rw [show (outsAt0 (F := Ideal) V c t0_15.val t0_15.isLt).2 = res2 V c from acc2_last V c t0_15.isLt]
  have hz' : (fun a => win0_2.index t0_15 a * main_v2_1.ty.shape.size a) = fun _ => 0 := funext fun a => (out_rect2 a).1
  exact (Memref.read_access_unit_zero (Elt Ideal) main_v2_1 hz' (fun a => by rw [congrFun hz' a]; simp) (res2 V c)).symm

/-- Every entry of each result array lies in the block point 15 writes back: the block starts at the origin and
    reaches the array's extents. -/
theorem cover1 (c : Dev nD) (i : ((cfg0.win 1).arr.view.loc (c.tc : Thread nD τ)).2.ty.Idx) :
    ∃ t : Fin cfg0.N, (cfg0.win 1).flush t = true ∧ i ∈ ((cfg0.win 1).blk t).view.set := by
  refine ⟨t0_15, (flush0_1 t0_15).mpr rfl, ?_⟩
  show i ∈ ((View.whole main_v2_0).slice (win0_1.rect t0_15)).set
  rw [View.set_slice_whole, Rect.mem_set_unit]
  intro a
  show win0_1.index t0_15 a * win0_1.size a ≤ (i a : Nat)
    ∧ (i a : Nat) < win0_1.index t0_15 a * win0_1.size a + win0_1.xsize (grid0.coords t0_15) a
  rw [(out_rect1 a).1, (out_rect1 a).2, Nat.zero_add]
  exact ⟨Nat.zero_le _, (i a).isLt⟩

theorem cover2 (c : Dev nD) (i : ((cfg0.win 2).arr.view.loc (c.tc : Thread nD τ)).2.ty.Idx) :
    ∃ t : Fin cfg0.N, (cfg0.win 2).flush t = true ∧ i ∈ ((cfg0.win 2).blk t).view.set := by
  refine ⟨t0_15, (flush0_2 t0_15).mpr rfl, ?_⟩
  show i ∈ ((View.whole main_v2_1).slice (win0_2.rect t0_15)).set
  rw [View.set_slice_whole, Rect.mem_set_unit]
  intro a
  show win0_2.index t0_15 a * win0_2.size a ≤ (i a : Nat)
    ∧ (i a : Nat) < win0_2.index t0_15 a * win0_2.size a + win0_2.xsize (grid0.coords t0_15) a
  rw [(out_rect2 a).1, (out_rect2 a).2, Nat.zero_add]
  exact ⟨Nat.zero_le _, (i a).isLt⟩

/-- After the region the first output array holds each column's sum over all rows. -/
theorem final_sum (c : Dev nD) :
    (dat0 (F := Ideal) V c).arrAt 1 cfg0.N = fun j : S1x8576.Idx => colSum (V c main_v0) (j 1) := by
  exact (dat0 (F := Ideal) V c).arrAt_eq_of_cover 1 (res1 V c) (flushed_eq1 V c) (cover1 c)

/-- After the region the second output array holds each column's sum of squares over all rows. -/
theorem final_sumsq (c : Dev nD) :
    (dat0 (F := Ideal) V c).arrAt 2 cfg0.N = fun j : S1x8576.Idx => colSumSq (V c main_v0) (j 1) := by
  exact (dat0 (F := Ideal) V c).arrAt_eq_of_cover 2 (res2 V c) (flushed_eq2 V c) (cover2 c)

end Cert.KernelIdeal.Stats

end
-- ==== Proof.Norm.lean ====
/-
  Region 1, the normalisation pass, read as values at the ideal instance. Its grid has 64 points; point `t` loads rows
  `128 t … 128 t + 127` of `x` and of the noise together with the four [1, 8576] rows (scale, shift, mean, inverse
  deviation), computes every entry of the block pointwise and writes the block back. The blocks tile the [8192, 8576]
  output, so the array ends holding one function of the six arrays, entry by entry.
-/
import proofs.«143405_j39367670235562_1_alg».proof.Proof.Gen.KernelIdeal.Frame
import proofs.«143405_j39367670235562_1_alg».proof.Proof.Moments
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Norm

open Cert.KernelIdeal Cert.KernelIdeal.Gen
open Idealize.ShloMosaic Idealize.ShloMosaic.TcCoe Idealize.ShloMosaic.ValueIdx Idealize.SL.Sem
open Idealize.ShloMosaic.Pipeline (Dat)

/-- The entry at row `r`, column `d`: `((x − mean) · istd · scale + shift + noise · 0.05) + 0`. -/
def entry (X NZ : S8192x8576.Idx → EReal) (Gm Bt Mn Is : S1x8576.Idx → EReal) (r : Fin 8192) (d : Fin 8576) : EReal :=
  ((((X (ix2 r d) - Mn (ix2 0 d)) * Is (ix2 0 d)) * Gm (ix2 0 d) + Bt (ix2 0 d)) + NZ (ix2 r d) * Cert.Moments.cStd) + Cert.Moments.cZero

/-! ## The body's arithmetic at an index -/

/-- The zero offsets of a whole-block access, as the constant function. -/
theorem zero_offsets : (![0, 0] : Fin 2 → Nat) = fun _ => 0 := funext fun a => by fin_cases a <;> rfl

/-- The body's arithmetic at row `p`, column `q` of a block: the identity casts drop, each [1, 8576] row broadcast over
    the 128 rows is read at column `q`, the two [128, 8576] blocks at `(p, q)`, and every operation is pointwise. -/
theorem payload_apply (x nz : S128x8576.Idx → EReal) (mn is gm bt : S1x8576.Idx → EReal) (p : Fin 128) (q : Fin 8576) :
    k1_pay1 (F := Ideal) x mn is gm bt nz (ix2 p q)
      = ((((x (ix2 p q) - mn (ix2 0 q)) * is (ix2 0 q)) * gm (ix2 0 q) + bt (ix2 0 q)) + nz (ix2 p q) * Cert.Moments.cStd)
          + Cert.Moments.cZero := by
  unfold k1_pay1
  simp only [shapeCast_self]
  have row : ∀ v : S1x8576.Idx → EReal, broadcastTo S128x8576 v broadcasts_S1x8576_S128x8576 (ix2 p q) = v (ix2 0 q) :=
    fun v => broadcastTo_1b_ab_apply v broadcasts_S1x8576_S128x8576 p q
  simp only [addf_apply, mulf_apply, subf_apply, broadcast_apply, row]
  rfl

variable (V : (c : Dev nD) → (b : Ref sig .tc) → Buf (Elt Ideal) ((c : Thread nD τ).loc b))

/-! ## The blocks a point reads -/

/-- The output array as one function of the six arrays: the entry at each index's row and column. -/
def normalised (c : Dev nD) : S8192x8576.Idx → EReal :=
  fun i => entry (V c main_v0) (V c main_v1) (V c main_v12) (V c main_v13) (V c main_v4) (V c main_v11) (i 0) (i 1)

/-- The index maps over the 64 grid points: the two [128, 8576] input blocks and the output block sit at block row `t`,
    block column 0; the four [1, 8576] rows at block (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of the block at point `t` is row `128 t + p` of the array. -/
def rowAt (t : Fin cfg1.N) (p : Fin 128) : Fin 8192 :=
  ⟨t.val * 128 + p.val, by have h : t.val < 64 := lt_of_lt_of_eq t.isLt N_1; have := p.isLt; omega⟩

/-- The `x` block at point `t`, read at `(p, q)`, is the array at row `128 t + p`, column `q`: a block's coordinate on an
    axis is block index × block size + the coordinate inside the block. -/
theorem read_x (c : Dev nD) (t : Fin cfg1.N) (p : Fin 128) (q : Fin 8576) :
    (iblk1 V c 0 t : S128x8576.Idx → EReal) (ix2 p q) = (V c main_v0 : S8192x8576.Idx → EReal) (ix2 (rowAt t p) q) := by
  obtain ⟨e0, e1, -⟩ := block_indices t
  unfold iblk1
  rw [View.read_apply]
  show V c main_v0 _ = V c main_v0 _
  congr 1
  funext a
  apply Fin.ext
  match a with
  | ⟨0, _⟩ => show win1_0.index t 0 * 128 + 1 * p.val = t.val * 128 + p.val; rw [e0]; omega
  | ⟨1, _⟩ => show win1_0.index t 1 * 8576 + 1 * q.val = q.val; rw [e1]; omega

/-- The noise block likewise. -/
theorem read_noise (c : Dev nD) (t : Fin cfg1.N) (p : Fin 128) (q : Fin 8576) :
    (iblk1 V c 1 t : S128x8576.Idx → EReal) (ix2 p q) = (V c main_v1 : S8192x8576.Idx → EReal) (ix2 (rowAt t p) q) := by
  obtain ⟨-, -, e0, e1, -⟩ := block_indices t
  unfold iblk1
  rw [View.read_apply]
  show V c main_v1 _ = V c main_v1 _
  congr 1
  funext a
  apply Fin.ext
  match a with
  | ⟨0, _⟩ => show win1_1.index t 0 * 128 + 1 * p.val = t.val * 128 + p.val; rw [e0]; omega
  | ⟨1, _⟩ => show win1_1.index t 1 * 8576 + 1 * q.val = q.val; rw [e1]; omega

/-- The scale row's block at any point is the row itself: its one block is the whole [1, 8576] array. -/
theorem read_scale (c : Dev nD) (t : Fin cfg1.N) (q : Fin 8576) :
    (iblk1 V c 2 t : S1x8576.Idx → EReal) (ix2 0 q) = (V c main_v12 : S1x8576.Idx → EReal) (ix2 0 q) := by
  obtain ⟨-, -, -, -, e0, e1, -⟩ := block_indices t
  unfold iblk1
  rw [View.read_apply]
  show V c main_v12 _ = V c main_v12 _
  congr 1
  funext a
  apply Fin.ext
  match a with
  | ⟨0, _⟩ => show win1_2.index t 0 * 1 + 1 * 0 = 0; rw [e0]
  | ⟨1, _⟩ => show win1_2.index t 1 * 8576 + 1 * q.val = q.val; rw [e1]; omega

/-- The shift row likewise. -/
theorem read_shift (c : Dev nD) (t : Fin cfg1.N) (q : Fin 8576) :
    (iblk1 V c 3 t : S1x8576.Idx → EReal) (ix2 0 q) = (V c main_v13 : S1x8576.Idx → EReal) (ix2 0 q) := by
  obtain ⟨-, -, -, -, -, -, e0, e1, -⟩ := block_indices t
  unfold iblk1
  rw [View.read_apply]
  show V c main_v13 _ = V c main_v13 _
  congr 1
  funext a
  apply Fin.ext
  match a with
  | ⟨0, _⟩ => show win1_3.index t 0 * 1 + 1 * 0 = 0; rw [e0]
  | ⟨1, _⟩ => show win1_3.index t 1 * 8576 + 1 * q.val = q.val; rw [e1]; omega

/-- The mean row likewise. -/
theorem read_mean (c : Dev nD) (t : Fin cfg1.N) (q : Fin 8576) :
    (iblk1 V c 4 t : S1x8576.Idx → EReal) (ix2 0 q) = (V c main_v4 : S1x8576.Idx → EReal) (ix2 0 q) := by
  obtain ⟨-, -, -, -, -, -, -, -, e0, e1, -⟩ := block_indices t
  unfold iblk1
  rw [View.read_apply]
  show V c main_v4 _ = V c main_v4 _
  congr 1
  funext a
  apply Fin.ext
  match a with
  | ⟨0, _⟩ => show win1_4.index t 0 * 1 + 1 * 0 = 0; rw [e0]
  | ⟨1, _⟩ => show win1_4.index t 1 * 8576 + 1 * q.val = q.val; rw [e1]; omega

/-- The inverse-deviation row likewise. -/
theorem read_istd (c : Dev nD) (t : Fin cfg1.N) (q : Fin 8576) :
    (iblk1 V c 5 t : S1x8576.Idx → EReal) (ix2 0 q) = (V c main_v11 : S1x8576.Idx → EReal) (ix2 0 q) := by
  obtain ⟨-, -, -, -, -, -, -, -, -, -, e0, e1, -⟩ := block_indices t
  unfold iblk1
  rw [View.read_apply]
  show V c main_v11 _ = V c main_v11 _
  congr 1
  funext a
  apply Fin.ext
  match a with
  | ⟨0, _⟩ => show win1_5.index t 0 * 1 + 1 * 0 = 0; rw [e0]
  | ⟨1, _⟩ => show win1_5.index t 1 * 8576 + 1 * q.val = q.val; rw [e1]; omega

/-! ## What a point writes back -/

/-- What point `t` writes back is block `t` of the whole-array function: the body's one store through the whole block
    leaves its payload, its loads through whole blocks read the input blocks, and at `(p, q)` of the block both sides are
    the entry at row `128 t + p`, column `q`. -/
theorem written_block (c : Dev nD) (t : Fin cfg1.N) :
    (dat1 (F := Ideal) V c).flushed 6 t = ((cfg1.win 6).blk t).view.read (Elt Ideal) (normalised V c) := by
  show (cfg1.win 6).cut (grid1.coords t) ((dat1 V c).after 6 t) = _
  rw [after1_6]
  unfold out1_6
  rw [View.canon_unit_zero zero_offsets]
  simp only [View.ld_unit_zero (S := S128x8576) zero_offsets, View.ld_unit_zero (S := S1x8576) zero_offsets]
  funext j
  obtain ⟨p, q, rfl⟩ : ∃ (p : Fin 128) (q : Fin 8576), j = ix2 p q := ⟨j 0, j 1, eq_ix2 j⟩
  have hout : View.read (Elt Ideal) ((View.whole main_v14).slice ((win1 6).rect t)) (normalised V c) (ix2 p q)
      = normalised V c (ix2 (rowAt t p) q) := by
    obtain ⟨-, -, -, -, -, -, -, -, -, -, -, -, e0, e1⟩ := block_indices t
    rw [View.read_apply]
    show normalised V c _ = normalised V c _
    congr 1
    funext a
    apply Fin.ext
    match a with
    | ⟨0, _⟩ => show win1_6.index t 0 * 128 + 1 * p.val = t.val * 128 + p.val; rw [e0]; omega
    | ⟨1, _⟩ => show win1_6.index t 1 * 8576 + 1 * q.val = q.val; rw [e1]; omega
  rw [hout]
  refine (payload_apply (iblk1 V c 0 t) (iblk1 V c 1 t) (iblk1 V c 4 t) (iblk1 V c 5 t) (iblk1 V c 2 t) (iblk1 V c 3 t) p q).trans ?_
  rw [read_x V c t p q, read_noise V c t p q, read_scale V c t q, read_shift V c t q, read_mean V c t q, read_istd V c t q]
  rfl

/-! ## The blocks tile the array -/

/-- An index of the array is in point `t`'s block iff each coordinate is in the block's range on its axis. -/
theorem mem_block (t : Fin cfg1.N) (i : S8192x8576.Idx) :
    i ∈ ((cfg1.win 6).blk t).view.set
      ↔ ∀ a : Fin 2, win1_6.index t a * S128x8576.size a ≤ (i a).val
          ∧ (i a).val < win1_6.index t a * S128x8576.size a + S128x8576.size a := by
  show i ∈ ((View.whole main_v14).slice (win1_6.rect t)).set ↔ _
  rw [View.set_slice_whole, Rect.mem_set_unit]
  exact Iff.rfl

/-- The 64 blocks of 128 rows tile the 8192 rows: row `r` lies in the block of point `r / 128`, and every point writes
    its block back. -/
theorem rows_covered (i : S8192x8576.Idx) :
    ∃ t : Fin cfg1.N, (cfg1.win 6).flush t = true ∧ i ∈ ((cfg1.win 6).blk t).view.set := by
  have h0 : (i 0).val < 8192 := idx2_lt0 i
  have h1 : (i 1).val < 8576 := idx2_lt1 i
  have ht : (i 0).val / 128 < cfg1.N := by rw [show cfg1.N = 64 from N_1]; omega
  obtain ⟨-, -, -, -, -, -, -, -, -, -, -, -, e0, e1⟩ := block_indices ⟨(i 0).val / 128, ht⟩
  have e0' : win1_6.index ⟨(i 0).val / 128, ht⟩ 0 = (i 0).val / 128 := e0
  refine ⟨⟨(i 0).val / 128, ht⟩, flush1_6 _, ?_⟩
  rw [mem_block]
  intro a
  match a with
  | ⟨0, _⟩ =>
    show win1_6.index ⟨(i 0).val / 128, ht⟩ 0 * 128 ≤ (i 0).val
      ∧ (i 0).val < win1_6.index ⟨(i 0).val / 128, ht⟩ 0 * 128 + 128
    rw [e0']; omega
  | ⟨1, _⟩ =>
    show win1_6.index ⟨(i 0).val / 128, ht⟩ 1 * 8576 ≤ (i 1).val
      ∧ (i 1).val < win1_6.index ⟨(i 0).val / 128, ht⟩ 1 * 8576 + 8576
    rw [e1]; omega

/-! ## The array after the region -/

/-- After the region the output array holds the entry function of the six arrays as the region found them. -/
theorem final_out (c : Dev nD) :
    (dat1 (F := Ideal) V c).arrAt 6 cfg1.N
      = fun i : S8192x8576.Idx => entry (V c main_v0) (V c main_v1) (V c main_v12) (V c main_v13) (V c main_v4) (V c main_v11) (i 0) (i 1) := by
  exact (dat1 (F := Ideal) V c).arrAt_eq_of_cover 6 (normalised V c) (fun t _ => written_block V c t) rows_covered

end Cert.KernelIdeal.Norm

end
-- ==== Proof.HostChain.lean ====
/-
  The fold through @main read at the buffers that matter. The first stretch reshapes `x` and the noise to [8192, 8576];
  region 0 leaves the column sums and the column sums of squares; the second stretch divides both by 8192, takes
  `var = Q/8192 − mean · mean` and `istd = rsqrt(var + ε)`, and reshapes scale and shift to [1, 8576]; region 1
  leaves the normalised block-tiled array; the last stretch reshapes it to [16, 512, 8576]. Read at (a, b, d), with
  row `512 a + b` of the flat arrays being entry (a, b) of the [16, 512] leading axes, the result is the entry function
  whose variance comes from the moments.
-/
import proofs.«143405_j39367670235562_1_alg».proof.Proof.Gen.KernelIdeal.Frame
import proofs.«143405_j39367670235562_1_alg».proof.Proof.Moments
import proofs.«143405_j39367670235562_1_alg».proof.Proof.Stats
import proofs.«143405_j39367670235562_1_alg».proof.Proof.Norm
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.HostChain

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The first stretch: the two reshapes -/

/-- `x` reshaped to [8192, 8576]. -/
theorem W1_v0 (c : Dev nD) : W1 m ρ c (Proc.devRef .tc main_v0)
    = shapeCast S8192x8576 (m ((c : Thread nD τ).loc main_arg0)) shapeCasts_S16x512x8576_S8192x8576 := by
  show StableHlo.after hostOps0 (W0 m ρ c) (Proc.devRef .tc main_v0) = _
  after_results
  rfl

/-- The noise reshaped to [8192, 8576]. -/
theorem W1_v1 (c : Dev nD) : W1 m ρ c (Proc.devRef .tc main_v1)
    = shapeCast S8192x8576 (m ((c : Thread nD τ).loc main_arg1)) shapeCasts_S16x512x8576_S8192x8576 := by
  show StableHlo.after hostOps0 (W0 m ρ c) (Proc.devRef .tc main_v1) = _
  after_results
  rfl

/-- Scale and shift are untouched by the first stretch. -/
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results

/-! ## Region 0's exit -/

/-- The flat `x` is an input of region 0: it leaves the region as it entered. -/
theorem W2_v0 (c : Dev nD) : W2 m ρ c (Proc.devRef .tc main_v0) = W1 m ρ c (Proc.devRef .tc main_v0) :=
  (W2_arr m ρ c 0).trans ((dat0 (V1 m ρ) c).arrAt_in 0 rfl _)

/-- The column sums and the column sums of squares. -/
theorem W2_v2_0 (c : Dev nD) : W2 m ρ c (Proc.devRef .tc main_v2_0)
    = fun j : S1x8576.Idx => Stats.colSum (V1 m ρ c main_v0) (j 1) :=
  (W2_arr m ρ c 1).trans (Stats.final_sum (V1 m ρ) c)
theorem W2_v2_1 (c : Dev nD) : W2 m ρ c (Proc.devRef .tc main_v2_1)
    = fun j : S1x8576.Idx => Stats.colSumSq (V1 m ρ c main_v0) (j 1) :=
  (W2_arr m ρ c 2).trans (Stats.final_sumsq (V1 m ρ) c)

/-- The flat noise, scale and shift are no array of region 0. -/
theorem W2_v1 (c : Dev nD) : W2 m ρ c (Proc.devRef .tc main_v1) = W1 m ρ c (Proc.devRef .tc main_v1) :=
  W2_of_ne m ρ c main_v1 (by decide)
theorem W2_arg2 (c : Dev nD) : W2 m ρ c (Proc.devRef .tc main_arg2) = W1 m ρ c (Proc.devRef .tc main_arg2) :=
  W2_of_ne m ρ c main_arg2 (by decide)
theorem W2_arg3 (c : Dev nD) : W2 m ρ c (Proc.devRef .tc main_arg3) = W1 m ρ c (Proc.devRef .tc main_arg3) :=
  W2_of_ne m ρ c main_arg3 (by decide)

/-! ## The second stretch: mean, variance, inverse deviation, and two reshapes -/

theorem W3_v0 (c : Dev nD) : W3 m ρ c (Proc.devRef .tc main_v0) = W2 m ρ c (Proc.devRef .tc main_v0) := by
  show StableHlo.after hostOps1 (W2 m ρ c) (Proc.devRef .tc main_v0) = _
  after_results
theorem W3_v1 (c : Dev nD) : W3 m ρ c (Proc.devRef .tc main_v1) = W2 m ρ c (Proc.devRef .tc main_v1) := by
  show StableHlo.after hostOps1 (W2 m ρ c) (Proc.devRef .tc main_v1) = _
  after_results

/-- The mean row: the column sums over 8192. -/
theorem W3_v4 (c : Dev nD) : W3 m ρ c (Proc.devRef .tc main_v4)
    = Host.divf (W2 m ρ c (Proc.devRef .tc main_v2_0)) (broadcastInDim S1x8576 ![] bcast_S_S1x8576 (constant (F := Ideal) S_ .f32 0x46000000#32)) := by
  show StableHlo.after hostOps1 (W2 m ρ c) (Proc.devRef .tc main_v4) = _
  after_results

/-- The inverse-deviation row: `rsqrt(Q/8192 − mean · mean + ε)`. -/
theorem W3_v11 (c : Dev nD) : W3 m ρ c (Proc.devRef .tc main_v11)
    = Host.rsqrt (addf (subf (Host.divf (W2 m ρ c (Proc.devRef .tc main_v2_1)) (broadcastInDim S1x8576 ![] bcast_S_S1x8576 (constant (F := Ideal) S_ .f32 0x46000000#32)))
        (mulf (W3 m ρ c (Proc.devRef .tc main_v4)) (W3 m ρ c (Proc.devRef .tc main_v4))))
        (broadcastInDim S1x8576 ![] bcast_S_S1x8576 (constant (F := Ideal) S_ .f32 0x3727C5AC#32))) := by
  rw [W3_v4]
  show StableHlo.after hostOps1 (W2 m ρ c) (Proc.devRef .tc main_v11) = _
  after_results

/-- Scale and shift reshaped to one row. -/
theorem W3_v12 (c : Dev nD) : W3 m ρ c (Proc.devRef .tc main_v12)
    = shapeCast S1x8576 (W2 m ρ c (Proc.devRef .tc main_arg2)) shapeCasts_S8576_S1x8576 := by
  show StableHlo.after hostOps1 (W2 m ρ c) (Proc.devRef .tc main_v12) = _
  after_results
  rfl
theorem W3_v13 (c : Dev nD) : W3 m ρ c (Proc.devRef .tc main_v13)
    = shapeCast S1x8576 (W2 m ρ c (Proc.devRef .tc main_arg3)) shapeCasts_S8576_S1x8576 := by
  show StableHlo.after hostOps1 (W2 m ρ c) (Proc.devRef .tc main_v13) = _
  after_results
  rfl

/-! ## Region 1's exit and the last reshape -/

theorem W4_v14 (c : Dev nD) : W4 m ρ c (Proc.devRef .tc main_v14)
    = fun i : S8192x8576.Idx => Norm.entry (V3 m ρ c main_v0) (V3 m ρ c main_v1) (V3 m ρ c main_v12) (V3 m ρ c main_v13)
        (V3 m ρ c main_v4) (V3 m ρ c main_v11) (i 0) (i 1) :=
  (W4_arr m ρ c 6).trans (Norm.final_out (V3 m ρ) c)

theorem W5_v15 (c : Dev nD) : W5 m ρ c (Proc.devRef .tc main_v15)
    = shapeCast S16x512x8576 (W4 m ρ c (Proc.devRef .tc main_v14)) shapeCasts_S8192x8576_S16x512x8576 := by
  show StableHlo.after hostOps2 (W4 m ρ c) (Proc.devRef .tc main_v15) = _
  after_results
  rfl

/-! ## The reshapes read at an entry -/

/-- Row `512 a + b`, column `d` of the flat array is entry (a, b, d). -/
theorem flat_apply (x : S16x512x8576.Idx → EReal) (a : Fin 16) (b : Fin 512) (d : Fin 8576) :
    shapeCast S8192x8576 x shapeCasts_S16x512x8576_S8192x8576 (ix2 (Stats.row a b) d) = x (ix3 a b d) :=
  shapeCast_apply x _ _ _ (by
    rw [Shape.rowMajor_val_three, Shape.rowMajor_val_two]
    show (a.val * 512 + b.val) * 8576 + d.val = (512 * a.val + b.val) * 8576 + d.val
    ring)

/-- Entry (0, d) of a [8576] array reshaped to one row is entry d. -/
theorem rowOf_apply (g : S8576.Idx → EReal) (d : Fin 8576) :
    shapeCast S1x8576 g shapeCasts_S8576_S1x8576 (ix2 (0 : Fin 1) d) = g (ix1 d) :=
  shapeCast_apply g _ _ _ (by
    rw [Shape.rowMajor_val_one, Shape.rowMajor_val_two]
    show d.val = 0 * 8576 + d.val
    omega)

/-- Entry (a, b, d) of a [8192, 8576] array reshaped to [16, 512, 8576] is its row `512 a + b`, column `d`. -/
theorem unflat_apply (y : S8192x8576.Idx → EReal) (a : Fin 16) (b : Fin 512) (d : Fin 8576) :
    shapeCast S16x512x8576 y shapeCasts_S8192x8576_S16x512x8576 (ix3 a b d) = y (ix2 (Stats.row a b) d) :=
  shapeCast_apply y _ _ _ (by
    rw [Shape.rowMajor_val_three, Shape.rowMajor_val_two]
    show (512 * a.val + b.val) * 8576 + d.val = (a.val * 512 + b.val) * 8576 + d.val
    ring)

/-! ## The rows region 1 reads, at a column -/

/-- The column sums of the flat `x` are the channel's sums. -/
theorem colSum_flat (x : S16x512x8576.Idx → EReal) (d : Fin 8576) :
    Stats.colSum (shapeCast S8192x8576 x shapeCasts_S16x512x8576_S8192x8576) d = Cert.Moments.chSum x d := by
  unfold Stats.colSum Cert.Moments.chSum
  simp only [flat_apply]
theorem colSumSq_flat (x : S16x512x8576.Idx → EReal) (d : Fin 8576) :
    Stats.colSumSq (shapeCast S8192x8576 x shapeCasts_S16x512x8576_S8192x8576) d = Cert.Moments.chSumSq x d := by
  unfold Stats.colSumSq Cert.Moments.chSumSq
  simp only [flat_apply]

/-- The mean row at column `d` is the channel's mean. -/
theorem mean_at (c : Dev nD) (d : Fin 8576) :
    V3 m ρ c main_v4 (ix2 (0 : Fin 1) d) = Cert.Moments.chMean (m ((c : Thread nD τ).loc main_arg0)) d := by
  show W3 m ρ c (Proc.devRef .tc main_v4) (ix2 (0 : Fin 1) d) = _
  rw [W3_v4, W2_v2_0]
  show Ideal.div (Stats.colSum (V1 m ρ c main_v0) d) (Ideal.ofBits .f32 0x46000000#32) = _
  rw [show V1 m ρ c main_v0 = W1 m ρ c (Proc.devRef .tc main_v0) from rfl, W1_v0, colSum_flat]
  rfl

/-- The second stretch's last chain read at column `d`, for any two rows `Q` and `Mn`. -/
theorem istd_formula (Q Mn : S1x8576.Idx → EReal) (d : Fin 8576) :
    Host.rsqrt (F := Ideal) (addf (subf (Host.divf Q (broadcastInDim S1x8576 ![] bcast_S_S1x8576 (constant (F := Ideal) S_ .f32 0x46000000#32))) (mulf Mn Mn))
        (broadcastInDim S1x8576 ![] bcast_S_S1x8576 (constant (F := Ideal) S_ .f32 0x3727C5AC#32))) (ix2 (0 : Fin 1) d)
      = Ideal.rsqrt (Ideal.div (Q (ix2 (0 : Fin 1) d)) Cert.Moments.cN - Mn (ix2 (0 : Fin 1) d) * Mn (ix2 (0 : Fin 1) d) + Cert.Moments.cEps) := rfl

/-- The inverse-deviation row at column `d`: `rsqrt` of the variance from the moments plus ε. -/
theorem istd_at (c : Dev nD) (d : Fin 8576) :
    V3 m ρ c main_v11 (ix2 (0 : Fin 1) d)
      = Ideal.rsqrt (Cert.Moments.varMoments (m ((c : Thread nD τ).loc main_arg0)) d + Cert.Moments.cEps) := by
  have hm : W3 m ρ c (Proc.devRef .tc main_v4) (ix2 (0 : Fin 1) d) = Cert.Moments.chMean (m ((c : Thread nD τ).loc main_arg0)) d :=
    mean_at m ρ c d
  have hq : W2 m ρ c (Proc.devRef .tc main_v2_1) (ix2 (0 : Fin 1) d) = Cert.Moments.chSumSq (m ((c : Thread nD τ).loc main_arg0)) d := by
    rw [W2_v2_1]
    show Stats.colSumSq (V1 m ρ c main_v0) d = _
    rw [show V1 m ρ c main_v0 = W1 m ρ c (Proc.devRef .tc main_v0) from rfl, W1_v0, colSumSq_flat]
  show W3 m ρ c (Proc.devRef .tc main_v11) (ix2 (0 : Fin 1) d) = _
  rw [W3_v11]
  refine (istd_formula _ _ d).trans ?_
  rw [hq, hm]
  rfl

/-- Scale and shift at column `d`. -/
theorem scale_at (c : Dev nD) (d : Fin 8576) :
    V3 m ρ c main_v12 (ix2 (0 : Fin 1) d) = m ((c : Thread nD τ).loc main_arg2) (ix1 d) := by
  show W3 m ρ c (Proc.devRef .tc main_v12) (ix2 (0 : Fin 1) d) = _
  rw [W3_v12, W2_arg2, W1_arg2]
  exact rowOf_apply _ d
theorem shift_at (c : Dev nD) (d : Fin 8576) :
    V3 m ρ c main_v13 (ix2 (0 : Fin 1) d) = m ((c : Thread nD τ).loc main_arg3) (ix1 d) := by
  show W3 m ρ c (Proc.devRef .tc main_v13) (ix2 (0 : Fin 1) d) = _
  rw [W3_v13, W2_arg3, W1_arg3]
  exact rowOf_apply _ d

/-- The flat `x` and the flat noise at row `512 a + b`, column `d`. -/
theorem x_at (c : Dev nD) (a : Fin 16) (b : Fin 512) (d : Fin 8576) :
    V3 m ρ c main_v0 (ix2 (Stats.row a b) d) = m ((c : Thread nD τ).loc main_arg0) (ix3 a b d) := by
  show W3 m ρ c (Proc.devRef .tc main_v0) (ix2 (Stats.row a b) d) = _
  rw [W3_v0, W2_v0, W1_v0]
  exact flat_apply _ a b d
theorem noise_at (c : Dev nD) (a : Fin 16) (b : Fin 512) (d : Fin 8576) :
    V3 m ρ c main_v1 (ix2 (Stats.row a b) d) = m ((c : Thread nD τ).loc main_arg1) (ix3 a b d) := by
  show W3 m ρ c (Proc.devRef .tc main_v1) (ix2 (Stats.row a b) d) = _
  rw [W3_v1, W2_v1, W1_v1]
  exact flat_apply _ a b d

/-! ## The result array -/

/-- What the result array holds when @main returns: at (a, b, d) the entry function whose variance comes from the
    moments, of the four arguments as launched. -/
theorem value (c : Dev nD) : W5 m ρ c (Proc.devRef .tc main_v15)
    = fun i : S16x512x8576.Idx => Cert.Moments.outMoments (m ((c : Thread nD τ).loc main_arg0)) (m ((c : Thread nD τ).loc main_arg1))
        (m ((c : Thread nD τ).loc main_arg2)) (m ((c : Thread nD τ).loc main_arg3)) (i 0) (i 1) (i 2) := by
  funext i
  obtain ⟨a, b, d, rfl⟩ : ∃ (a : Fin 16) (b : Fin 512) (d : Fin 8576), i = ix3 a b d := ⟨i 0, i 1, i 2, eq_ix3 i⟩
  rw [W5_v15, unflat_apply, W4_v14]
  show Norm.entry (V3 m ρ c main_v0) (V3 m ρ c main_v1) (V3 m ρ c main_v12) (V3 m ρ c main_v13) (V3 m ρ c main_v4) (V3 m ρ c main_v11)
      (Stats.row a b) d = Cert.Moments.outMoments _ _ _ _ a b d
  unfold Norm.entry Cert.Moments.outMoments
  rw [x_at, noise_at, scale_at, shift_at, mean_at, istd_at]

end Cert.KernelIdeal.HostChain

end
-- ==== Proof.RefValue.lean ====
/-
  The reference program's result as the entry function of its four arguments: the host operations read one at a time,
  each two-axis sum re-indexed as the double sum over the two summed coordinates.
-/
import proofs.«143405_j39367670235562_1_alg».proof.Proof.Gen.ReferenceIdeal.Read
import proofs.«143405_j39367670235562_1_alg».proof.Proof.Moments
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

open scoped BigOperators

namespace Cert.ReferenceIdeal.RefValue

open Cert.ReferenceIdeal Cert.ReferenceIdeal.Gen
open Idealize.ShloMosaic Idealize.ShloMosaic.TcCoe Idealize.ShloMosaic.ValueIdx Idealize.SL.Sem

open Cert.ReferenceIdeal.Read Cert.Moments

variable (x0 x1 : S16x512x8576.Idx → EReal) (x2 x3 : S8576.Idx → EReal)

/-! ## Indices -/

/-- A rank-1 index whose one coordinate has the value of `d` is (d). -/
theorem eq_ix1_of_val (j : S8576.Idx) (d : Fin 8576) (h : (j 0 : ℕ) = d) : j = ix1 d := by
  funext c
  match c with
  | ⟨0, _⟩ => exact Fin.ext h

/-! ## A sum over the first two axes -/

/-- Dropping the first two coordinates of (a, b, d) leaves (d). -/
theorem drop_ix3 (a : Fin 16) (b : Fin 512) (d : Fin 8576) :
    reducesTo_S16x512x8576_S8576_d0_1.drop (ix3 a b d) = ix1 d := by
  funext c
  match c with
  | ⟨0, _⟩ => rfl

/-- An index that drops to (d) is (its first coordinate, its second coordinate, d). -/
theorem eq_ix3_of_drop (i : S16x512x8576.Idx) (d : Fin 8576)
    (h : reducesTo_S16x512x8576_S8576_d0_1.drop i = ix1 d) : i = ix3 (i 0 : Fin 16) (i 1 : Fin 512) d := by
  have hv : (reducesTo_S16x512x8576_S8576_d0_1.drop i 0 : ℕ) = i 2 :=
    Shape.ReducesTo.drop_apply_val_of_eq reducesTo_S16x512x8576_S8576_d0_1 i 0 2
  rw [h] at hv
  have h2 : (i 2 : Fin 8576) = d := Fin.ext hv.symm
  rw [← h2]
  exact eq_ix3 i

/-- The sum over the first two axes, at (d): the initial value plus the double sum over the two summed coordinates of
    the entries (a, b, d). The indices that drop to (d) correspond to the pairs (a, b) by i ↦ (i 0, i 1) and
    (a, b) ↦ (a, b, d). -/
theorem hostReduceAdd_rows (f : S16x512x8576.Idx → EReal) (init : EReal) (d : Fin 8576) :
    Ideal.hostReduceAdd reducesTo_S16x512x8576_S8576_d0_1 f init (ix1 d)
      = init + ∑ a : Fin 16, ∑ b : Fin 512, f (ix3 a b d) := by
  unfold Ideal.hostReduceAdd
  congr 1
  refine Eq.trans ?_ (Fintype.sum_prod_type (fun p : Fin 16 × Fin 512 => f (ix3 p.1 p.2 d)))
  refine Finset.sum_nbij' (fun i => ((i 0 : Fin 16), (i 1 : Fin 512))) (fun p => ix3 p.1 p.2 d) ?_ ?_ ?_ ?_ ?_
  · intro i _; exact Finset.mem_univ _
  · intro p _; exact Finset.mem_filter.2 ⟨Finset.mem_univ _, drop_ix3 p.1 p.2 d⟩
  · intro i hi; exact (eq_ix3_of_drop i d (Finset.mem_filter.1 hi).2).symm
  · intro p _; rfl
  · intro i hi; exact congrArg f (eq_ix3_of_drop i d (Finset.mem_filter.1 hi).2)

/-! ## The per-channel statistics -/

/-- The first sum at (d) is the channel's sum. -/
theorem sum_at (d : Fin 8576) : val_main_v0 (F := Ideal) x0 (ix1 d) = chSum x0 d := by
  unfold val_main_v0
  rw [hostReduceAdd_apply, hostReduceAdd_rows, val_main_cst_apply, Ideal.ofBits_def, Ideal.ofBits_zero_f32, zero_add]
  rfl

/-- Its quotient by the count is the channel's mean. -/
theorem mean_at (d : Fin 8576) : val_main_v2 (F := Ideal) x0 (ix1 d) = chMean x0 d := by
  rw [val_main_v2_apply, sum_at, val_main_v1_apply, val_main_cst_0_apply, Ideal.hostDivf_def, Ideal.ofBits_def]
  rfl

/-- The mean laid over the whole array reads, at (a, b, d), the mean of channel d (the copy the deviations for the
    variance subtract). -/
theorem mean_bcast (a : Fin 16) (b : Fin 512) (d : Fin 8576) :
    val_main_v4 (F := Ideal) x0 (ix3 a b d) = chMean x0 d := by
  rw [val_main_v4_apply, val_main_v3_apply, eq_ix1_of_val (idx_main_v3 (idx_main_v4 (ix3 a b d))) d rfl, mean_at]

/-- The second copy of the mean (the one the result's deviations subtract). -/
theorem mean_bcast' (a : Fin 16) (b : Fin 512) (d : Fin 8576) :
    val_main_v11 (F := Ideal) x0 (ix3 a b d) = chMean x0 d := by
  rw [val_main_v11_apply, val_main_v10_apply, eq_ix1_of_val (idx_main_v10 (idx_main_v11 (ix3 a b d))) d rfl, mean_at]

/-- The squared deviation at (a, b, d). -/
theorem devsq_at (a : Fin 16) (b : Fin 512) (d : Fin 8576) :
    val_main_v6 (F := Ideal) x0 (ix3 a b d) = (x0 (ix3 a b d) - chMean x0 d) * (x0 (ix3 a b d) - chMean x0 d) := by
  rw [val_main_v6_apply, val_main_v5_apply, mean_bcast, Ideal.subf_def, Ideal.mulf_def]

/-- The mean of the squared deviations at (d) is the channel's variance from the deviations. -/
theorem var_at (d : Fin 8576) : val_main_v9 (F := Ideal) x0 (ix1 d) = varDeviations x0 d := by
  rw [val_main_v9_apply]
  unfold val_main_v7
  rw [hostReduceAdd_apply, hostReduceAdd_rows, val_main_cst_1_apply, Ideal.ofBits_def, Ideal.ofBits_zero_f32, zero_add,
    val_main_v8_apply, val_main_cst_2_apply, Ideal.hostDivf_def, Ideal.ofBits_def]
  simp only [devsq_at]
  rfl

/-- The reciprocal square root of the variance plus ε, at (d). -/
theorem istd_at (d : Fin 8576) :
    val_main_v15 (F := Ideal) x0 (ix1 d) = Ideal.rsqrt (varDeviations x0 d + cEps) := by
  rw [val_main_v15_apply, val_main_v14_apply, var_at, val_main_v13_apply, val_main_cst_3_apply,
    Ideal.hostUnary_rsqrt_def, Ideal.addf_def, Ideal.ofBits_def]

/-- Laid over the whole array it reads, at (a, b, d), the value of channel d. -/
theorem istd_bcast (a : Fin 16) (b : Fin 512) (d : Fin 8576) :
    val_main_v17 (F := Ideal) x0 (ix3 a b d) = Ideal.rsqrt (varDeviations x0 d + cEps) := by
  rw [val_main_v17_apply, val_main_v16_apply, eq_ix1_of_val (idx_main_v16 (idx_main_v17 (ix3 a b d))) d rfl, istd_at]

/-! ## The per-channel parameters and the noise term -/

/-- The scale laid over the whole array reads, at (a, b, d), its entry (d). -/
theorem scale_bcast (a : Fin 16) (b : Fin 512) (d : Fin 8576) :
    val_main_v20 (F := Ideal) x2 (ix3 a b d) = x2 (ix1 d) := by
  rw [val_main_v20_apply, val_main_v19_apply, eq_ix1_of_val (idx_main_v19 (idx_main_v20 (ix3 a b d))) d rfl]

/-- The shift likewise. -/
theorem shift_bcast (a : Fin 16) (b : Fin 512) (d : Fin 8576) :
    val_main_v23 (F := Ideal) x3 (ix3 a b d) = x3 (ix1 d) := by
  rw [val_main_v23_apply, val_main_v22_apply, eq_ix1_of_val (idx_main_v22 (idx_main_v23 (ix3 a b d))) d rfl]

/-- The noise term at an index: the noise entry times the scale word, plus the zero word. -/
theorem noise_at (i : S16x512x8576.Idx) : val_main_v28 (F := Ideal) x1 i = x1 i * cStd + cZero := by
  rw [val_main_v28_apply, val_main_v26_apply, val_main_v25_apply, val_main_cst_4_apply, val_main_v27_apply,
    val_main_cst_5_apply, Ideal.addf_def, Ideal.mulf_def, Ideal.ofBits_def, Ideal.ofBits_def]

/-! ## The result -/

/-- The reference's result term is the entry function (variance from the deviations) of its arguments. -/
theorem result_eq (x0 x1 : S16x512x8576.Idx → EReal) (x2 x3 : S8576.Idx → EReal) :
    Cert.ReferenceIdeal.Read.val_main_v29 (F := Ideal) x0 x1 x2 x3 = Cert.Moments.result x0 x1 x2 x3 := by
  funext i
  obtain ⟨a, b, d, rfl⟩ : ∃ (a : Fin 16) (b : Fin 512) (d : Fin 8576), i = ix3 a b d := ⟨i 0, i 1, i 2, eq_ix3 i⟩
  rw [val_main_v29_apply, val_main_v24_apply, val_main_v21_apply, val_main_v18_apply, val_main_v12_apply,
    mean_bcast', istd_bcast, scale_bcast, shift_bcast, noise_at, Ideal.addf_def, Ideal.addf_def, Ideal.mulf_def,
    Ideal.mulf_def, Ideal.subf_def]
  rfl

end Cert.ReferenceIdeal.RefValue

end
-- ==== Proof.Finite.lean ====
/-
  The precondition read back: where `|x| < +∞` holds at every entry of the first argument, every entry is a real number.
-/
import proofs.«143405_j39367670235562_1_alg».proof.Defs
import proofs.«143405_j39367670235562_1_alg».proof.Proof.Gen.Pre_finite_inputs
import Idealize.ShloMosaic.Lib.ReduceAll
import Idealize.ShloMosaic.Lib.ValueIdx
import Idealize.ShloMosaic.PureOps.Ideal.Laws

set_option maxRecDepth 16384

noncomputable section

open scoped BigOperators

namespace Cert.Finite

open Idealize.ShloMosaic Idealize.ShloMosaic.ValueIdx

/-- The scalar shape has one index. -/
instance : Subsingleton Cert.Pre_finite_inputs.S_.Idx := ⟨fun a b => funext fun d => d.elim0⟩

/-- The word the precondition compares against is +∞. -/
theorem ofBits_inf : Ideal.ofBits .f32 0x7F800000#32 = ⊤ := by simp [Ideal.ofBits, Ideal.ieee]

/-- An ordered "less than" whose word is 1 says its operands are in that order. -/
theorem lt_of_cmp_olt (x y : EReal) (h : Ideal.cmp .olt x y = 1#1) : x < y := by
  have h' : BitVec.ofBool (decide (x < y)) = 1#1 := h
  by_contra hn
  rw [decide_eq_false hn] at h'
  exact absurd h' (by decide)

/-- An extended real whose absolute value max(x, −x) is below +∞ is a real number: at −∞ and at +∞ the absolute
    value is +∞. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every entry of the first argument array is a real number. -/
theorem real_of_pre [Cert.Pre_finite_inputs.Facts] (a0 a1 : FVec Ideal Cert.Pre_finite_inputs.S16x512x8576 .f32)
    (a2 a3 : FVec Ideal Cert.Pre_finite_inputs.S8576 .f32)
    (h : Cert.Pre_finite_inputs.fn (F := Ideal) a0 a1 a2 a3 = (fun _ => 1#1)) (i : Cert.Pre_finite_inputs.S16x512x8576.Idx) :
    ∃ r : ℝ, a0 i = (r : EReal) := by
  have h0 := congrFun h ValueIdx.ix0
  dsimp only [Cert.Pre_finite_inputs.fn, Cert.Pre_finite_inputs.fn_part1] at h0
  -- the conjunction of the four "all" words is 1, so the first is
  have h1 := (IntOp.andi_eq_one.1 h0).1
  have h2 := (IntOp.andi_eq_one.1 h1).1
  have h3 := (IntOp.andi_eq_one.1 h2).1
  -- the "all" over the first argument is 1, so its comparison word is 1 at every index
  have h4 := Host.reduce_andi_all _ _ _ _ _ h3 i
  have h5 : Ideal.cmp .olt (max (a0 i) (-(a0 i))) (Ideal.ofBits .f32 0x7F800000#32) = 1#1 := h4
  rw [ofBits_inf] at h5
  exact real_of_abs_lt_top (a0 i) (lt_of_cmp_olt _ _ h5)

end Cert.Finite

end
-- ==== Proof.lean ====
/-
  A per-channel batch normalisation with additive noise, computed two ways over arrays of shape [16, 512, 8576].

  Per channel `d`, over the 8192 entries `x[a, b, d]`: one program accumulates `S = Σ x` and `Q = Σ x²` block by block
  and takes `mean = S / 8192`, `var = Q / 8192 − mean · mean`; the other takes the same mean and
  `var = (Σ (x − mean)²) / 8192`. Both then form `(x − mean) · rsqrt(var + ε) · γ[d] + β[d]` and add
  `noise · 0.05` and `0`. Read over the extended reals the two variances agree wherever every entry of `x` is a real
  number, because `Σ (x − mean)² = Q − S² / 8192`; that is the one place the precondition (every input finite) is
  used. The two ways of adding the last two summands differ only by associativity.

  The frames of the two kernel programs are the generated ones; the reference's frame is its generated run with the
  result dropped; the idealised kernel is the kernel's own text read over the extended reals, so the preservation
  conjunct is `True`.
-/
import proofs.«143405_j39367670235562_1_alg».proof.Defs
import proofs.«143405_j39367670235562_1_alg».proof.Proof.Gen.Kernel
import proofs.«143405_j39367670235562_1_alg».proof.Proof.Gen.Kernel.Skeleton
import proofs.«143405_j39367670235562_1_alg».proof.Proof.Gen.Kernel.Launch
import proofs.«143405_j39367670235562_1_alg».proof.Proof.Gen.Kernel.Points
import proofs.«143405_j39367670235562_1_alg».proof.Proof.Gen.Kernel.Frame
import proofs.«143405_j39367670235562_1_alg».proof.Proof.Gen.KernelIdeal
import proofs.«143405_j39367670235562_1_alg».proof.Proof.Gen.KernelIdeal.Skeleton
import proofs.«143405_j39367670235562_1_alg».proof.Proof.Gen.KernelIdeal.Launch
import proofs.«143405_j39367670235562_1_alg».proof.Proof.Gen.KernelIdeal.Points
import proofs.«143405_j39367670235562_1_alg».proof.Proof.Gen.KernelIdeal.Frame
import proofs.«143405_j39367670235562_1_alg».proof.Proof.Gen.ReferenceIdeal
import proofs.«143405_j39367670235562_1_alg».proof.Proof.Gen.ReferenceIdeal.Run
import proofs.«143405_j39367670235562_1_alg».proof.Proof.Gen.ReferenceIdeal.Read
import proofs.«143405_j39367670235562_1_alg».proof.Proof.Gen.Pre_finite_inputs
import proofs.«143405_j39367670235562_1_alg».proof.Proof.Moments
import proofs.«143405_j39367670235562_1_alg».proof.Proof.Named
import proofs.«143405_j39367670235562_1_alg».proof.Proof.HostChain
import proofs.«143405_j39367670235562_1_alg».proof.Proof.RefValue
import proofs.«143405_j39367670235562_1_alg».proof.Proof.Finite
import Idealize.ShloMosaic.Adequacy
import Idealize.ShloMosaic.Init

noncomputable section

namespace Cert.Proof

open Idealize.ShloMosaic Idealize.ShloMosaic.TcCoe Idealize.SL.Sem

/-- The reference runs and keeps its arguments: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the four arguments, both idealised programs run and end with equal result arrays:
    the kernel's at the entry function whose variance comes from the moments, the reference's at the one whose variance
    comes from the deviations, equal where `x` is finite. -/
theorem algebraic : Cert.algebraic_KernelIdeal_ReferenceIdeal := by
  intro m ρ m' ρ' hpre hagree
  refine ⟨fun c => Cert.KernelIdeal.Gen.W5 (F := Ideal) m ρ c (Proc.devRef .tc Cert.KernelIdeal.main_v15),
    Cert.KernelIdeal.Named.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  rw [Cert.ReferenceIdeal.Read.val_main_v29_eq, Cert.ReferenceIdeal.RefValue.result_eq]
  show _ = Cert.KernelIdeal.Gen.W5 (F := Ideal) m ρ c (Proc.devRef .tc Cert.KernelIdeal.main_v15)
  rw [Cert.KernelIdeal.HostChain.value]
  funext i
  exact (Cert.Moments.outMoments_eq_outDeviations _ _ _ _
    (fun j => Cert.Finite.real_of_pre _ _ _ _ (hpre c) j) (i 0) (i 1) (i 2)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
